-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x64x16 : Shape := ⟨3, ![11008, 64, 16]⟩
abbrev S11008x64x1 : Shape := ⟨3, ![11008, 64, 1]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x64x1 : S_.BroadcastsInDim S11008x64x1 (![] : Fin 0 → Fin S11008x64x1.rank)
  reducesTo_S11008x64x1_S_d0_1_2 : S11008x64x1.ReducesTo [0, 1, 2] S_
  bcast_S_S11008 : S_.BroadcastsInDim S11008 (![] : Fin 0 → Fin S11008.rank)
  reducesTo_S11008_S_d0 : S11008.ReducesTo [0] S_

variable [Facts]

def fn_part1 {F : FTy → Type} [FloatOps F] (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  main_v18

def fn {F : FTy → Type} [FloatOps F] (main_arg0 : FVec F S8192x4096 .f32) (main_arg1 : IVec S11008x64x16 32) (main_arg2 : FVec F S11008x64x1 .f32) (main_arg3 : FVec F S11008x64x1 .f32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x64x1 .f32 := Host.absf main_arg2
  let main_cst_0 : FVec F S_ .f32 := constant S_ .f32 0x7F800000#32
  let main_v5 : FVec F S11008x64x1 .f32 := broadcastInDim S11008x64x1 ![] bcast_S_S11008x64x1 main_cst_0
  let main_v6 : IVec S11008x64x1 1 := cmpf .olt main_v4 main_v5
  let main_c_1 : IVec S_ 1 := constantI S_ 1 1#1
  let main_v7 : IVec S_ 1 := (fun x v => Host.reduce IntOp.andi x v reducesTo_S11008x64x1_S_d0_1_2 h_S_) main_v6 main_c_1
  let main_v8 : IVec S_ 1 := andi main_v3 main_v7
  let main_v9 : FVec F S11008x64x1 .f32 := Host.absf main_arg3
  let main_cst_2 : FVec F S_ .f32 := constant S_ .f32 0x7F800000#32
  let main_v10 : FVec F S11008x64x1 .f32 := broadcastInDim S11008x64x1 ![] bcast_S_S11008x64x1 main_cst_2
  let main_v11 : IVec S11008x64x1 1 := cmpf .olt main_v9 main_v10
  let main_c_3 : IVec S_ 1 := constantI S_ 1 1#1
  let main_v12 : IVec S_ 1 := (fun x v => Host.reduce IntOp.andi x v reducesTo_S11008x64x1_S_d0_1_2 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_v13 main_v16
-- ==== Kernel.lean ====
abbrev S8192x4096 : Shape := ⟨2, ![8192, 4096]⟩
abbrev S11008x64x16 : Shape := ⟨3, ![11008, 64, 16]⟩
abbrev S11008x64x1 : Shape := ⟨3, ![11008, 64, 1]⟩
abbrev S11008 : Shape := ⟨1, ![11008]⟩
abbrev S8192x64x16x4 : Shape := ⟨4, ![8192, 64, 16, 4]⟩
abbrev S8192x4x64x16 : Shape := ⟨4, ![8192, 4, 64, 16]⟩
abbrev S11008x1024 : Shape := ⟨2, ![11008, 1024]⟩
abbrev S11008x64 : Shape := ⟨2, ![11008, 64]⟩
abbrev S8192x11008 : Shape := ⟨2, ![8192, 11008]⟩
abbrev S512x4096 : Shape := ⟨2, ![512, 4096]⟩
abbrev S256x1024 : Shape := ⟨2, ![256, 1024]⟩
abbrev S256 : Shape := ⟨1, ![256]⟩
abbrev S512x256 : Shape := ⟨2, ![512, 256]⟩
abbrev S256x4096 : Shape := ⟨2, ![256, 4096]⟩
abbrev S1x256 : Shape := ⟨2, ![1, 256]⟩

abbrev nBuf : Space → Nat
  | .hbm => 16
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S11008x64x16, .i32⟩
  | .hbm, ⟨2, _⟩ => ⟨S11008x64x1, .f32⟩
  | .hbm, ⟨3, _⟩ => ⟨S11008x64x1, .f32⟩
  | .hbm, ⟨4, _⟩ => ⟨S11008, .f32⟩
  | .hbm, ⟨5, _⟩ => ⟨S8192x64x16x4, .f32⟩
  | .hbm, ⟨6, _⟩ => ⟨S8192x4x64x16, .f32⟩
  | .hbm, ⟨7, _⟩ => ⟨S8192x4096, .f32⟩
  | .hbm, ⟨8, _⟩ => ⟨S11008x1024, .i32⟩
  | .hbm, ⟨9, _⟩ => ⟨S11008x64, .f32⟩
  | .hbm, ⟨10, _⟩ => ⟨S11008x64x16, .f32⟩
  | .hbm, ⟨11, _⟩ => ⟨S11008x1024, .f32⟩
  | .hbm, ⟨12, _⟩ => ⟨S11008x64, .f32⟩
  | .hbm, ⟨13, _⟩ => ⟨S11008x64x16, .f32⟩
  | .hbm, ⟨14, _⟩ => ⟨S11008x1024, .f32⟩
  | .hbm, ⟨15, _⟩ => ⟨S8192x11008, .f32⟩
  | .local _ .vmem, ⟨0, _⟩ => ⟨S512x4096, .f32⟩
  | .local _ .vmem, ⟨1, _⟩ => ⟨S512x4096, .f32⟩
  | .local _ .vmem, ⟨2, _⟩ => ⟨S256x1024, .i32⟩
  | .local _ .vmem, ⟨3, _⟩ => ⟨S256x1024, .i32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256, .f32⟩
  | .local _ .vmem, ⟨9, _⟩ => ⟨S256, .f32⟩
  | .local _ .vmem, ⟨10, _⟩ => ⟨S512x256, .f32⟩
  | .local _ .vmem, ⟨11, _⟩ => ⟨S512x256, .f32⟩
  | .local _ .vmem, ⟨12, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S8192x4096_S8192x64x16x4 : S8192x4096.ShapeCasts S8192x64x16x4
  transposes_S8192x64x16x4_S8192x4x64x16_0_3_1_2 : S8192x64x16x4.Transposes [0, 3, 1, 2] S8192x4x64x16
  shapeCasts_S8192x4x64x16_S8192x4096 : S8192x4x64x16.ShapeCasts S8192x4096
  shapeCasts_S11008x64x16_S11008x1024 : S11008x64x16.ShapeCasts S11008x1024
  shapeCasts_S11008x64x1_S11008x64 : S11008x64x1.ShapeCasts S11008x64
  bcast_S11008x64_S11008x64x16_0_1 : S11008x64.BroadcastsInDim S11008x64x16 (![0, 1] : Fin 2 → Fin S11008x64x16.rank)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S256x4096_S256x1024_0_0 : ∀ a, (![0, 0] : Fin 2 → Nat) a + S256x1024.size a ≤ S256x4096.size a
  packedbf16_S256x4096_S256x1024_0_0 : (Rect.unit (s := S256x4096) ![0, 0] S256x1024.size inb_S256x4096_S256x1024_0_0).PackedRows (EltTy.packing .bf16)
  inb_S256x4096_S256x1024_0_1024 : ∀ a, (![0, 1024] : Fin 2 → Nat) a + S256x1024.size a ≤ S256x4096.size a
  packedbf16_S256x4096_S256x1024_0_1024 : (Rect.unit (s := S256x4096) ![0, 1024] S256x1024.size inb_S256x4096_S256x1024_0_1024).PackedRows (EltTy.packing .bf16)
  inb_S256x4096_S256x1024_0_2048 : ∀ a, (![0, 2048] : Fin 2 → Nat) a + S256x1024.size a ≤ S256x4096.size a
  packedbf16_S256x4096_S256x1024_0_2048 : (Rect.unit (s := S256x4096) ![0, 2048] S256x1024.size inb_S256x4096_S256x1024_0_2048).PackedRows (EltTy.packing .bf16)
  inb_S256x4096_S256x1024_0_3072 : ∀ a, (![0, 3072] : Fin 2 → Nat) a + S256x1024.size a ≤ S256x4096.size a
  packedbf16_S256x4096_S256x1024_0_3072 : (Rect.unit (s := S256x4096) ![0, 3072] S256x1024.size inb_S256x4096_S256x1024_0_3072).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S1x256 : S256.ShapeCasts S1x256
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S11008x1024.size a
  hwx0_1 : ∀ i : grid0.Coords, EltTy.bits .i32 = 32 ∨ (Rect.block (s := S11008x1024) S256x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S11008x1024.size a
  hwx0_2 : ∀ i : grid0.Coords, EltTy.bits .f32 = 32 ∨ (Rect.block (s := S11008x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S11008x1024.size a
  hwx0_3 : ∀ i : grid0.Coords, EltTy.bits .f32 = 32 ∨ (Rect.block (s := S11008x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S11008.size a
  hwx0_4 : ∀ i : grid0.Coords, EltTy.bits .f32 = 32 ∨ (Rect.block (s := S11008) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S8192x11008.size a
  hwx0_5 : ∀ i : grid0.Coords, EltTy.bits .f32 = 32 ∨ (Rect.block (s := S8192x11008) S512x256.size (cc0_transform_5 i) (hinb0_5 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x64x16 : Shape := ⟨3, ![11008, 64, 16]⟩
abbrev S11008x64x1 : Shape := ⟨3, ![11008, 64, 1]⟩
abbrev S11008 : Shape := ⟨1, ![11008]⟩
abbrev S4 : Shape := ⟨1, ![4]⟩
abbrev S11008x64x16x1 : Shape := ⟨4, ![11008, 64, 16, 1]⟩
abbrev S1x1x1x4 : Shape := ⟨4, ![1, 1, 1, 4]⟩
abbrev S11008x64x16x4 : Shape := ⟨4, ![11008, 64, 16, 4]⟩
abbrev S_ : Shape := ⟨0, ![]⟩
abbrev S11008x64x64 : Shape := ⟨3, ![11008, 64, 64]⟩
abbrev S11008x4096 : Shape := ⟨2, ![11008, 4096]⟩
abbrev S4096x11008 : Shape := ⟨2, ![4096, 11008]⟩
abbrev S8192x11008 : Shape := ⟨2, ![8192, 11008]⟩
abbrev S1x11008 : Shape := ⟨2, ![1, 11008]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x64x16, .i32⟩
  | .hbm, ⟨2, _⟩ => ⟨S11008x64x1, .f32⟩
  | .hbm, ⟨3, _⟩ => ⟨S11008x64x1, .f32⟩
  | .hbm, ⟨4, _⟩ => ⟨S11008, .f32⟩
  | .hbm, ⟨5, _⟩ => ⟨S4, .i32⟩
  | .hbm, ⟨6, _⟩ => ⟨S11008x64x16x1, .i32⟩
  | .hbm, ⟨7, _⟩ => ⟨S1x1x1x4, .i32⟩
  | .hbm, ⟨8, _⟩ => ⟨S11008x64x16x4, .i32⟩
  | .hbm, ⟨9, _⟩ => ⟨S11008x64x16x4, .i32⟩
  | .hbm, ⟨10, _⟩ => ⟨S11008x64x16x4, .i32⟩
  | .hbm, ⟨11, _⟩ => ⟨S_, .i32⟩
  | .hbm, ⟨12, _⟩ => ⟨S11008x64x16x4, .i32⟩
  | .hbm, ⟨13, _⟩ => ⟨S11008x64x16x4, .i32⟩
  | .hbm, ⟨14, _⟩ => ⟨S11008x64x64, .i32⟩
  | .hbm, ⟨15, _⟩ => ⟨S11008x64x64, .f32⟩
  | .hbm, ⟨16, _⟩ => ⟨S11008x64x64, .f32⟩
  | .hbm, ⟨17, _⟩ => ⟨S11008x64x64, .f32⟩
  | .hbm, ⟨18, _⟩ => ⟨S11008x64x64, .f32⟩
  | .hbm, ⟨19, _⟩ => ⟨S11008x64x64, .f32⟩
  | .hbm, ⟨20, _⟩ => ⟨S11008x4096, .f32⟩
  | .hbm, ⟨21, _⟩ => ⟨S4096x11008, .f32⟩
  | .hbm, ⟨22, _⟩ => ⟨S8192x11008, .f32⟩
  | .hbm, ⟨23, _⟩ => ⟨S1x11008, .f32⟩
  | .hbm, ⟨24, _⟩ => ⟨S8192x11008, .f32⟩
  | .hbm, ⟨25, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S11008x64x16_S11008x64x16x1_0_1_2 : S11008x64x16.BroadcastsInDim S11008x64x16x1 (![0, 1, 2] : Fin 3 → Fin S11008x64x16x1.rank)
  bcast_S4_S1x1x1x4_3 : S4.BroadcastsInDim S1x1x1x4 (![3] : Fin 1 → Fin S1x1x1x4.rank)
  bcast_S11008x64x16x1_S11008x64x16x4_0_1_2_3 : S11008x64x16x1.BroadcastsInDim S11008x64x16x4 (![0, 1, 2, 3] : Fin 4 → Fin S11008x64x16x4.rank)
  bcast_S1x1x1x4_S11008x64x16x4_0_1_2_3 : S1x1x1x4.BroadcastsInDim S11008x64x16x4 (![0, 1, 2, 3] : Fin 4 → Fin S11008x64x16x4.rank)
  bcast_S_S11008x64x16x4 : S_.BroadcastsInDim S11008x64x16x4 (![] : Fin 0 → Fin S11008x64x16x4.rank)
  shapeCasts_S11008x64x16x4_S11008x64x64 : S11008x64x16x4.ShapeCasts S11008x64x64
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.KBlocks.lean ====
/-
  Which part of each array a grid point works on.

  The 688 points are 43 weight tiles of 16 points each: point `t` is row block `t % 16` of x (512 rows)
  against weight tile `t / 16` (256 output columns).  So at point `t` the x block is rows
  `(t % 16)·512 …` of the prepared x, all 4096 columns; the three weight blocks are rows `(t / 16)·256 …`
  of the flattened words, scales and biases, all 1024 columns; the bias block is entries
  `(t / 16)·256 …` of b; and the output block is rows `(t % 16)·512 …`, columns `(t / 16)·256 …`.
-/
import proofs.«409624_j18382460026880_3_alg».proof.Proof.Gen.KernelIdeal.Frame
import Idealize.ShloMosaic.Lib.ValueIdx
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
  Idealize.ShloMosaic.ValueIdx

/-- The printed index maps, decided over the grid: which block of each array point `t` is on. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 1) = t.val / 16
    ∧ win0_5.index t (0 : Fin 2) = t.val % 16 ∧ win0_5.index t (1 : Fin 2) = t.val / 16 :=
  (by decide +kernel : ∀ t : Fin grid0.N, _)

theorem lt_N (t : Fin cfg0.N) : t.val < 688 := lt_of_lt_of_eq t.isLt (show cfg0.N = 688 from N_0)

/-- Row `a` of point `t`'s x block, as a row of x. -/
def xrow (t : Fin cfg0.N) (a : Fin 512) : Fin 8192 := ⟨t.val % 16 * 512 + a.val, by have := a.isLt; omega⟩

/-- Row `q` of point `t`'s weight tile, as an output feature. -/
def wrow (t : Fin cfg0.N) (q : Fin 256) : Fin 11008 := ⟨t.val / 16 * 256 + q.val, by have := lt_N t; have := q.isLt; omega⟩

variable (m : (ℓ : Loc nD τ sig) → Buf (Elt Ideal) ℓ)

/-- The five input blocks of point `t`, at their literal shapes. -/
abbrev xblk (c : Dev nD) (t : Fin cfg0.N) : FVec Ideal S512x4096 .f32 := iblk m c 0 t
abbrev wblk (c : Dev nD) (t : Fin cfg0.N) : IVec S256x1024 32 := iblk m c 1 t
abbrev sblk (c : Dev nD) (t : Fin cfg0.N) : FVec Ideal S256x1024 .f32 := iblk m c 2 t
abbrev bblk (c : Dev nD) (t : Fin cfg0.N) : FVec Ideal S256x1024 .f32 := iblk m c 3 t
abbrev oblk (c : Dev nD) (t : Fin cfg0.N) : FVec Ideal S256 .f32 := iblk m c 4 t

theorem xblk_apply (c : Dev nD) (t : Fin cfg0.N) (a : Fin 512) (k : Fin 4096) :
    xblk m c t (ix2 a k) = (V m c main_v2 : S8192x4096.Idx → EReal) (ix2 (xrow t a) k) := by
  obtain ⟨e00, e01, -⟩ := idx_facts t
  show (V m c main_v2 : S8192x4096.Idx → EReal) (((cfg0.win 0).blk t).view.emb (ix2 a k)) = _
  refine congrArg (V m c main_v2 : S8192x4096.Idx → EReal) (funext fun ax => Fin.ext ?_)
  match ax with
  | ⟨0, _⟩ => show win0_0.index t (0 : Fin 2) * 512 + 1 * a.val = t.val % 16 * 512 + a.val; omega
  | ⟨1, _⟩ => show win0_0.index t (1 : Fin 2) * 4096 + 1 * k.val = k.val; omega

theorem wblk_apply (c : Dev nD) (t : Fin cfg0.N) (q : Fin 256) (col : Fin 1024) :
    wblk m c t (ix2 q col) = (V m c main_v3 : S11008x1024.Idx → BitVec 32) (ix2 (wrow t q) col) := by
  obtain ⟨-, -, e10, e11, -⟩ := idx_facts t
  show (V m c main_v3 : S11008x1024.Idx → BitVec 32) (((cfg0.win 1).blk t).view.emb (ix2 q col)) = _
  refine congrArg (V m c main_v3 : S11008x1024.Idx → BitVec 32) (funext fun ax => Fin.ext ?_)
  match ax with
  | ⟨0, _⟩ => show win0_1.index t (0 : Fin 2) * 256 + 1 * q.val = t.val / 16 * 256 + q.val; omega
  | ⟨1, _⟩ => show win0_1.index t (1 : Fin 2) * 1024 + 1 * col.val = col.val; omega

theorem sblk_apply (c : Dev nD) (t : Fin cfg0.N) (q : Fin 256) (col : Fin 1024) :
    sblk m c t (ix2 q col) = (V m c main_v6 : S11008x1024.Idx → EReal) (ix2 (wrow t q) col) := by
  obtain ⟨-, -, -, -, e20, e21, -⟩ := idx_facts t
  show (V m c main_v6 : S11008x1024.Idx → EReal) (((cfg0.win 2).blk t).view.emb (ix2 q col)) = _
  refine congrArg (V m c main_v6 : S11008x1024.Idx → EReal) (funext fun ax => Fin.ext ?_)
  match ax with
  | ⟨0, _⟩ => show win0_2.index t (0 : Fin 2) * 256 + 1 * q.val = t.val / 16 * 256 + q.val; omega
  | ⟨1, _⟩ => show win0_2.index t (1 : Fin 2) * 1024 + 1 * col.val = col.val; omega

theorem bblk_apply (c : Dev nD) (t : Fin cfg0.N) (q : Fin 256) (col : Fin 1024) :
    bblk m c t (ix2 q col) = (V m c main_v9 : S11008x1024.Idx → EReal) (ix2 (wrow t q) col) := by
  obtain ⟨-, -, -, -, -, -, e30, e31, -⟩ := idx_facts t
  show (V m c main_v9 : S11008x1024.Idx → EReal) (((cfg0.win 3).blk t).view.emb (ix2 q col)) = _
  refine congrArg (V m c main_v9 : S11008x1024.Idx → EReal) (funext fun ax => Fin.ext ?_)
  match ax with
  | ⟨0, _⟩ => show win0_3.index t (0 : Fin 2) * 256 + 1 * q.val = t.val / 16 * 256 + q.val; omega
  | ⟨1, _⟩ => show win0_3.index t (1 : Fin 2) * 1024 + 1 * col.val = col.val; omega

theorem oblk_apply (c : Dev nD) (t : Fin cfg0.N) (q : Fin 256) :
    oblk m c t (ix1 q) = (V m c main_arg4 : S11008.Idx → EReal) (ix1 (wrow t q)) := by
  obtain ⟨-, -, -, -, -, -, -, -, e40, -⟩ := idx_facts t
  show (V m c main_arg4 : S11008.Idx → EReal) (((cfg0.win 4).blk t).view.emb (ix1 q)) = _
  refine congrArg (V m c main_arg4 : S11008.Idx → EReal) (funext fun ax => Fin.ext ?_)
  match ax with
  | ⟨0, _⟩ => show win0_4.index t (0 : Fin 1) * 256 + 1 * q.val = t.val / 16 * 256 + q.val; omega

/-- Entry (a, q) of point `t`'s output block, as an entry of the result array. -/
theorem out_emb (t : Fin cfg0.N) (a : Fin 512) (q : Fin 256) :
    ((cfg0.win 5).blk t).view.emb (ix2 a q) = ix2 (xrow t a) (wrow t q) := by
  obtain ⟨-, -, -, -, -, -, -, -, -, e50, e51⟩ := idx_facts t
  funext ax
  apply Fin.ext
  match ax with
  | ⟨0, _⟩ => show win0_5.index t (0 : Fin 2) * 512 + 1 * a.val = t.val % 16 * 512 + a.val; omega
  | ⟨1, _⟩ => show win0_5.index t (1 : Fin 2) * 256 + 1 * q.val = t.val / 16 * 256 + q.val; omega

/-- The output window's blocks are whole: what a point writes back is what the body left, entry by entry. -/
theorem cut_apply (t : Fin cfg0.N) (X : FVec Ideal S512x256 .f32) (y : S512x256.Idx) :
    ((cfg0.win 5).cut (grid0.coords t) X : S512x256.Idx → EReal) y = X y := rfl

end Cert.KernelIdeal.Blocks

end
-- ==== Proof.Spec.lean ====
/-
  The mathematics both programs compute, with no program in sight.

  A packed word holds four 4-bit codes at bit offsets 12, 8, 4 and 0.  Code `p` of the word at
  (row r, group g, slot s) dequantizes to `code · scale[r, g] + bias[r, g]`, and sits at column
  `g·64 + s·4 + p` of the 11008 × 4096 weight matrix.  The result is `x · weightᵀ + b`.

  Two facts let a second arrangement compute the same numbers:
  * masking a word to its low 16 bits before extracting a code changes no code, because every code
    lies below bit 16 (`nib_mask`);
  * listing the 4096 columns plane by plane (`p·1024 + g·16 + s`) instead of group by group is a
    bijection of the columns, and a finite sum does not depend on the order of its terms
    (`sum_planeMajor`).
-/
import Idealize.ShloMosaic.PureOps.Ideal
import Idealize.ShloMosaic.Lib.ValueIdx

noncomputable section

namespace Cert.Spec

open Idealize.ShloMosaic Idealize.ShloMosaic.ValueIdx

/-! ## The codes of a word -/

/-- The bit offset of code `p`: 12, 8, 4, 0. -/
def shiftOf : Fin 4 → BitVec 32
  | 0 => 12#32 | 1 => 8#32 | 2 => 4#32 | 3 => 0#32

/-- Code `p` of a word: shift right (arithmetically) by the code's offset, keep four bits. -/
def nib (w : BitVec 32) (p : Fin 4) : BitVec 32 := (w.sshiftRight' (shiftOf p)) &&& 15#32

/-- Bit `i` of `15` is set exactly below 4, and bit `i` of `65535` exactly below 16. -/
theorem getLsbD_15 (i : Nat) : (15#32).getLsbD i = decide (i < 4) := by
  rw [show (15#32 : BitVec 32) = (BitVec.allOnes 4).setWidth 32 from by decide]
  simp only [BitVec.getLsbD_setWidth, BitVec.getLsbD_allOnes]
  by_cases h : i < 4
  · have : i < 32 := by omega
    simp [h, this]
  · simp [h]

theorem getLsbD_65535 (i : Nat) : (65535#32).getLsbD i = decide (i < 16) := by
  rw [show (65535#32 : BitVec 32) = (BitVec.allOnes 16).setWidth 32 from by decide]
  simp only [BitVec.getLsbD_setWidth, BitVec.getLsbD_allOnes]
  by_cases h : i < 16
  · have : i < 32 := by omega
    simp [h, this]
  · simp [h]

/-- For a shift of at most 12, the four bits kept after the shift are bits `s … s+3` of the word, all
    below bit 16: masking the word to 16 bits first changes nothing. -/
theorem nib_mask_nat (w : BitVec 32) (s : Nat) (hs : s ≤ 12) :
    ((w &&& 65535#32).sshiftRight s) &&& 15#32 = (w.sshiftRight s) &&& 15#32 := by
  apply BitVec.eq_of_getLsbD_eq
  intro i hi
  simp only [BitVec.getLsbD_and, BitVec.getLsbD_sshiftRight, getLsbD_15, getLsbD_65535]
  by_cases h4 : i < 4
  · have h1 : s + i < 32 := by omega
    have h2 : s + i < 16 := by omega
    simp [h1, h2]
  · simp [h4]

theorem nib_mask (w : BitVec 32) (p : Fin 4) : nib (w &&& 65535#32) p = nib w p := by
  unfold nib
  rw [BitVec.sshiftRight_eq', BitVec.sshiftRight_eq']
  apply nib_mask_nat
  match p with
  | 0 => decide
  | 1 => decide
  | 2 => decide
  | 3 => decide

/-! ## The columns, group-major and plane-major -/

/-- Group-major column `k = g·64 + s·4 + p`: its group, slot and code number. -/
def colG (k : Fin 4096) : Fin 64 := ⟨k.val / 64, by have := k.isLt; omega⟩
def colS (k : Fin 4096) : Fin 16 := ⟨k.val % 64 / 4, by omega⟩
def colP (k : Fin 4096) : Fin 4 := ⟨k.val % 4, by omega⟩

/-- Plane-major column `k' = p·1024 + g·16 + s`: its code number, group and slot. -/
def plP (k : Fin 4096) : Fin 4 := ⟨k.val / 1024, by have := k.isLt; omega⟩
def plG (k : Fin 4096) : Fin 64 := ⟨k.val % 1024 / 16, by omega⟩
def plS (k : Fin 4096) : Fin 16 := ⟨k.val % 16, by omega⟩

/-- The group-major column that plane-major column `k'` holds. -/
def toGroupMajor (k : Fin 4096) : Fin 4096 :=
  ⟨(k.val % 1024 / 16) * 64 + (k.val % 16) * 4 + k.val / 1024, by have := k.isLt; omega⟩

/-- … and back. -/
def toPlaneMajor (k : Fin 4096) : Fin 4096 :=
  ⟨(k.val % 4) * 1024 + (k.val / 64) * 16 + k.val % 64 / 4, by have := k.isLt; omega⟩

/-- A plane-major column is its three digits: `k = p·1024 + g·16 + s` with `p < 4`, `g < 64`, `s < 16`. -/
theorem plane_digits (k : Fin 4096) :
    ∃ p g s : Nat, p < 4 ∧ g < 64 ∧ s < 16 ∧ k.val = p * 1024 + g * 16 + s
      ∧ k.val / 1024 = p ∧ k.val % 1024 / 16 = g ∧ k.val % 16 = s := by
  have := k.isLt
  exact ⟨k.val / 1024, k.val % 1024 / 16, k.val % 16, by omega, by omega, by omega, by omega, rfl, rfl, rfl⟩

/-- A group-major column is its three digits: `k = g·64 + s·4 + p`. -/
theorem group_digits (k : Fin 4096) :
    ∃ p g s : Nat, p < 4 ∧ g < 64 ∧ s < 16 ∧ k.val = g * 64 + s * 4 + p
      ∧ k.val % 4 = p ∧ k.val / 64 = g ∧ k.val % 64 / 4 = s := by
  have := k.isLt
  exact ⟨k.val % 4, k.val / 64, k.val % 64 / 4, by omega, by omega, by omega, by omega, rfl, rfl, rfl⟩

/-- The digits of `g·64 + s·4 + p`, read group-major. -/
theorem gm_digits (p g s : Nat) (hp : p < 4) (hs : s < 16) :
    (g * 64 + s * 4 + p) % 4 = p ∧ (g * 64 + s * 4 + p) / 64 = g ∧ (g * 64 + s * 4 + p) % 64 / 4 = s := by
  have e : (g * 64 + s * 4 + p) % 64 = s * 4 + p := by omega
  refine ⟨by omega, by omega, ?_⟩
  rw [e]; omega

/-- The digits of `p·1024 + g·16 + s`, read plane-major. -/
theorem pm_digits (p g s : Nat) (hg : g < 64) (hs : s < 16) :
    (p * 1024 + g * 16 + s) / 1024 = p ∧ (p * 1024 + g * 16 + s) % 1024 / 16 = g ∧ (p * 1024 + g * 16 + s) % 16 = s := by
  have e : (p * 1024 + g * 16 + s) % 1024 = g * 16 + s := by omega
  refine ⟨by omega, ?_, by omega⟩
  rw [e]; omega

/-- The two column orders are in bijection. -/
def planeEquiv : Fin 4096 ≃ Fin 4096 where
  toFun := toGroupMajor
  invFun := toPlaneMajor
  left_inv k := by
    apply Fin.ext
    obtain ⟨p, g, s, hp, hg, hs, hk, e1, e2, e3⟩ := plane_digits k
    obtain ⟨d1, d2, d3⟩ := gm_digits p g s hp hs
    simp only [toGroupMajor, toPlaneMajor, e1, e2, e3, d1, d2, d3]
    omega
  right_inv k := by
    apply Fin.ext
    obtain ⟨p, g, s, hp, hg, hs, hk, e1, e2, e3⟩ := group_digits k
    obtain ⟨d1, d2, d3⟩ := pm_digits p g s hg hs
    simp only [toGroupMajor, toPlaneMajor, e1, e2, e3, d1, d2, d3]
    omega

theorem colG_toGroupMajor (k : Fin 4096) : colG (toGroupMajor k) = plG k := by
  apply Fin.ext
  obtain ⟨p, g, s, hp, hg, hs, hk, e1, e2, e3⟩ := plane_digits k
  obtain ⟨d1, d2, d3⟩ := gm_digits p g s hp hs
  simp only [colG, plG, toGroupMajor, e1, e2, e3, d2]
theorem colS_toGroupMajor (k : Fin 4096) : colS (toGroupMajor k) = plS k := by
  apply Fin.ext
  obtain ⟨p, g, s, hp, hg, hs, hk, e1, e2, e3⟩ := plane_digits k
  obtain ⟨d1, d2, d3⟩ := gm_digits p g s hp hs
  simp only [colS, plS, toGroupMajor, e1, e2, e3, d3]
theorem colP_toGroupMajor (k : Fin 4096) : colP (toGroupMajor k) = plP k := by
  apply Fin.ext
  obtain ⟨p, g, s, hp, hg, hs, hk, e1, e2, e3⟩ := plane_digits k
  obtain ⟨d1, d2, d3⟩ := gm_digits p g s hp hs
  simp only [colP, plP, toGroupMajor, e1, e2, e3, d1]

/-- A sum over the columns may be taken plane by plane. -/
theorem sum_planeMajor {M : Type} [AddCommMonoid M] (f : Fin 4096 → M) :
    ∑ k : Fin 4096, f (toGroupMajor k) = ∑ k : Fin 4096, f k :=
  Equiv.sum_comp planeEquiv f

/-! ## The result -/

abbrev SX : Shape := ⟨2, ![8192, 4096]⟩
abbrev SW : Shape := ⟨3, ![11008, 64, 16]⟩
abbrev SS : Shape := ⟨3, ![11008, 64, 1]⟩
abbrev SB : Shape := ⟨1, ![11008]⟩
abbrev SO : Shape := ⟨2, ![8192, 11008]⟩

variable (x : FVec Ideal SX .f32) (w : IVec SW 32) (sc bi : FVec Ideal SS .f32) (b : FVec Ideal SB .f32)

/-- Code `p` of the word at (r, g, s), dequantized: the code as an integer, times the group's scale,
    plus the group's bias. -/
def deq (r : Fin 11008) (g : Fin 64) (s : Fin 16) (p : Fin 4) : EReal :=
  (((nib (w (ix3 r g s)) p).toInt : ℝ) : EReal) * sc (ix3 r g (0 : Fin 1)) + bi (ix3 r g (0 : Fin 1))

/-- Entry (t, r) of `x · weightᵀ + b`, the columns group-major. -/
def outAt (t : Fin 8192) (r : Fin 11008) : EReal :=
  (∑ k : Fin 4096, x (ix2 t k) * deq w sc bi r (colG k) (colS k) (colP k)) + b (ix1 r)

/-- The same entry with the columns plane-major. -/
theorem outAt_planeMajor (t : Fin 8192) (r : Fin 11008) :
    outAt x w sc bi b t r
      = (∑ k : Fin 4096, x (ix2 t (toGroupMajor k)) * deq w sc bi r (plG k) (plS k) (plP k)) + b (ix1 r) := by
  unfold outAt
  rw [← sum_planeMajor (fun k => x (ix2 t k) * deq w sc bi r (colG k) (colS k) (colP k))]
  simp only [colG_toGroupMajor, colS_toGroupMajor, colP_toGroupMajor]

/-- The whole result array. -/
def out : FVec Ideal SO .f32 := fun j => outAt x w sc bi b (j 0) (j 1)

theorem out_apply (t : Fin 8192) (r : Fin 11008) : out x w sc bi b (ix2 t r) = outAt x w sc bi b t r := rfl

end Cert.Spec

end
-- ==== Proof.KHost.lean ====
/-
  What the kernel's region finds in the four arrays the host prepares for it.

  * x is re-laid so that its 4096 columns come plane by plane: column `k' = p·1024 + g·16 + s` of the
    prepared array is column `g·64 + s·4 + p` of x (split the columns as (g, s, p), move p to the front,
    flatten again).
  * The packed words [11008, 64, 16] are flattened to [11008, 1024]: column `c` is group `c / 16`,
    slot `c % 16`.
  * Each group's scale, and each group's bias, is repeated over the group's 16 slots and flattened the
    same way: column `c` holds the value of group `c / 16`.
-/
import proofs.«409624_j18382460026880_3_alg».proof.Proof.Gen.KernelIdeal.Frame
import proofs.«409624_j18382460026880_3_alg».proof.Proof.Spec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

/-! ## The re-layings, at an entry -/

/-- [8192, 4, 64, 16] flattened to [8192, 4096]: column `k` is plane `k / 1024`, group `k % 1024 / 16`, slot `k % 16`. -/
theorem flatten4_apply {α : Type} (X : S8192x4x64x16.Idx → α) (t : Fin 8192) (k : Fin 4096) :
    shapeCast S8192x4096 X shapeCasts_S8192x4x64x16_S8192x4096 (ix2 t k)
      = X (ix4 t (Spec.plP k) (Spec.plG k) (Spec.plS k)) := by
  refine shapeCast_apply X _ _ _ ?_
  rw [Shape.rowMajor_val_four, Shape.rowMajor_val_two]
  show ((t.val * 4 + k.val / 1024) * 64 + k.val % 1024 / 16) * 16 + k.val % 16 = t.val * 4096 + k.val
  have := k.isLt
  omega

/-- The code axis moved to the front: position (t, p, g, s) reads (t, g, s, p). -/
theorem front_apply {α : Type} (X : S8192x64x16x4.Idx → α) (t : Fin 8192) (p : Fin 4) (g : Fin 64) (s : Fin 16) :
    transpose S8192x4x64x16 [0, 3, 1, 2] X transposes_S8192x64x16x4_S8192x4x64x16_0_3_1_2 (ix4 t p g s) = X (ix4 t g s p) :=
  transpose_apply _ X _ _ _ fun b => match b with
    | ⟨0, _⟩ => rfl | ⟨1, _⟩ => rfl | ⟨2, _⟩ => rfl | ⟨3, _⟩ => rfl

/-- [8192, 4096] split as [8192, 64, 16, 4]: position (t, g, s, p) is column `g·64 + s·4 + p`. -/
theorem split_apply {α : Type} (X : S8192x4096.Idx → α) (t : Fin 8192) (g : Fin 64) (s : Fin 16) (p : Fin 4) :
    shapeCast S8192x64x16x4 X shapeCasts_S8192x4096_S8192x64x16x4 (ix4 t g s p)
      = X (ix2 t (⟨g.val * 64 + s.val * 4 + p.val, by have := g.isLt; have := s.isLt; have := p.isLt; omega⟩ : Fin 4096)) := by
  refine shapeCast_apply X _ _ _ ?_
  rw [Shape.rowMajor_val_two, Shape.rowMajor_val_four]
  show t.val * 4096 + (g.val * 64 + s.val * 4 + p.val) = ((t.val * 64 + g.val) * 16 + s.val) * 4 + p.val
  omega

/-- [11008, 64, 16] flattened to [11008, 1024]: column `c` is group `c / 16`, slot `c % 16`. -/
theorem flatten3_apply {α : Type} (X : S11008x64x16.Idx → α) (r : Fin 11008) (c : Fin 1024) :
    shapeCast S11008x1024 X shapeCasts_S11008x64x16_S11008x1024 (ix2 r c)
      = X (ix3 r (⟨c.val / 16, by have := c.isLt; omega⟩ : Fin 64) (⟨c.val % 16, by omega⟩ : Fin 16)) := by
  refine shapeCast_apply X _ _ _ ?_
  rw [Shape.rowMajor_val_three, Shape.rowMajor_val_two]
  show (r.val * 64 + c.val / 16) * 16 + c.val % 16 = r.val * 1024 + c.val
  omega

/-- The unit last axis dropped: (r, g) reads (r, g, 0). -/
theorem drop_apply {α : Type} (X : S11008x64x1.Idx → α) (r : Fin 11008) (g : Fin 64) :
    shapeCast S11008x64 X shapeCasts_S11008x64x1_S11008x64 (ix2 r g) = X (ix3 r g (0 : Fin 1)) := by
  refine shapeCast_apply X _ _ _ ?_
  rw [Shape.rowMajor_val_three, Shape.rowMajor_val_two]
  show (r.val * 64 + g.val) * 1 + 0 = r.val * 64 + g.val
  omega

/-- A per-group value repeated over the group's 16 slots. -/
theorem repeat_apply {α : Type} (X : S11008x64.Idx → α) (r : Fin 11008) (g : Fin 64) (s : Fin 16) :
    broadcastInDim S11008x64x16 ![0, 1] bcast_S11008x64_S11008x64x16_0_1 X (ix3 r g s) = X (ix2 r g) :=
  broadcastInDim_apply _ _ _ (ix3 r g s) (ix2 r g) (fun a => match a with | ⟨0, _⟩ => rfl | ⟨1, _⟩ => rfl)

/-! ## The four prepared arrays -/

variable (m : (ℓ : Loc nD τ sig) → Buf (Elt Ideal) ℓ)

theorem xcols_eq (c : Dev nD) : (V m c main_v2 : S8192x4096.Idx → EReal) =
    shapeCast S8192x4096
      (transpose S8192x4x64x16 [0, 3, 1, 2]
        (shapeCast S8192x64x16x4 (m ((c : Thread nD τ).loc main_arg0)) shapeCasts_S8192x4096_S8192x64x16x4)
        transposes_S8192x64x16x4_S8192x4x64x16_0_3_1_2)
      shapeCasts_S8192x4x64x16_S8192x4096 := by
  dsimp only [V, hostOps0]; after_results; rfl

theorem words_eq (c : Dev nD) : (V m c main_v3 : S11008x1024.Idx → BitVec 32) =
    shapeCast S11008x1024 (m ((c : Thread nD τ).loc main_arg1)) shapeCasts_S11008x64x16_S11008x1024 := by
  dsimp only [V, hostOps0]; after_results; rfl

theorem scales_eq (c : Dev nD) : (V m c main_v6 : S11008x1024.Idx → EReal) =
    shapeCast S11008x1024
      (broadcastInDim S11008x64x16 ![0, 1] bcast_S11008x64_S11008x64x16_0_1
        (shapeCast S11008x64 (m ((c : Thread nD τ).loc main_arg2)) shapeCasts_S11008x64x1_S11008x64))
      shapeCasts_S11008x64x16_S11008x1024 := by
  dsimp only [V, hostOps0]; after_results; rfl

theorem biases_eq (c : Dev nD) : (V m c main_v9 : S11008x1024.Idx → EReal) =
    shapeCast S11008x1024
      (broadcastInDim S11008x64x16 ![0, 1] bcast_S11008x64_S11008x64x16_0_1
        (shapeCast S11008x64 (m ((c : Thread nD τ).loc main_arg3)) shapeCasts_S11008x64x1_S11008x64))
      shapeCasts_S11008x64x16_S11008x1024 := by
  dsimp only [V, hostOps0]; after_results; rfl

/-- Plane-major column `k` of the prepared x is group-major column `toGroupMajor k` of x. -/
theorem xcols_apply (c : Dev nD) (t : Fin 8192) (k : Fin 4096) :
    (V m c main_v2 : S8192x4096.Idx → EReal) (ix2 t k) = m ((c : Thread nD τ).loc main_arg0) (ix2 t (Spec.toGroupMajor k)) := by
  rw [xcols_eq, flatten4_apply, front_apply, split_apply]
  rfl

/-- Column `c` of the flattened words is the word of group `c / 16`, slot `c % 16`. -/
theorem words_apply (c : Dev nD) (r : Fin 11008) (col : Fin 1024) :
    (V m c main_v3 : S11008x1024.Idx → BitVec 32) (ix2 r col)
      = m ((c : Thread nD τ).loc main_arg1) (ix3 r (⟨col.val / 16, by have := col.isLt; omega⟩ : Fin 64) (⟨col.val % 16, by omega⟩ : Fin 16)) := by
  rw [words_eq, flatten3_apply]

/-- Column `c` of the prepared scales is the scale of group `c / 16`. -/
theorem scales_apply (c : Dev nD) (r : Fin 11008) (col : Fin 1024) :
    (V m c main_v6 : S11008x1024.Idx → EReal) (ix2 r col)
      = m ((c : Thread nD τ).loc main_arg2) (ix3 r (⟨col.val / 16, by have := col.isLt; omega⟩ : Fin 64) (0 : Fin 1)) := by
  rw [scales_eq, flatten3_apply, repeat_apply, drop_apply]

/-- Column `c` of the prepared biases is the bias of group `c / 16`. -/
theorem biases_apply (c : Dev nD) (r : Fin 11008) (col : Fin 1024) :
    (V m c main_v9 : S11008x1024.Idx → EReal) (ix2 r col)
      = m ((c : Thread nD τ).loc main_arg3) (ix3 r (⟨col.val / 16, by have := col.isLt; omega⟩ : Fin 64) (0 : Fin 1)) := by
  rw [biases_eq, flatten3_apply, repeat_apply, drop_apply]

end Cert.KernelIdeal.Host

end
-- ==== Proof.KScratch.lean ====
/-
  The weight tile the body caches, as one function of the three weight blocks.

  The body stores four 256 × 1024 planes side by side into a 256 × 4096 buffer.  Plane `p` (columns
  `p·1024 … p·1024 + 1023`) holds, at (q, c), code `p` of the packed word at (q, c) — taken after the
  word is masked to 16 bits, which changes no code — as a number, times the scale at (q, c), plus the
  bias at (q, c).  So the entry at (q, k) depends on the plane `k / 1024` and the column `k % 1024`
  inside it.
-/
import proofs.«409624_j18382460026880_3_alg».proof.Proof.Gen.KernelIdeal.Skeleton
import proofs.«409624_j18382460026880_3_alg».proof.Proof.Spec
import Idealize.ShloMosaic.Lib.ValueIdx
import Idealize.ShloMosaic.Lib.Pipeline.Value
import Idealize.ShloMosaic.Lib.Ring
import Idealize.ShloMosaic.Lib.Tactic

set_option maxRecDepth 16384

noncomputable section

namespace Cert.KernelIdeal.Tile

open Cert.KernelIdeal Cert.KernelIdeal.Gen Idealize.ShloMosaic Idealize.ShloMosaic.ValueIdx Idealize.ShloMosaic.Tactic

variable {F : FTy → Type} [FloatOps F]

/-! ## The four planes, for any float values -/

/-- The four stores into the cache, the last first: plane 3, plane 2, plane 1, plane 0. -/
def planes (x1 : Vec F S256x1024 .i32) (x2 x3 : Vec F S256x1024 .f32) : List (View.Piece (Elt F) S256x4096 .bf16) :=
  [⟨Rect.unit ![0, 3072] S256x1024.size inb_S256x4096_S256x1024_0_3072, k0_pay2 (k0_pay4 x1) (k0_pay5 x2) (k0_pay6 x3)⟩,
   ⟨Rect.unit ![0, 2048] S256x1024.size inb_S256x4096_S256x1024_0_2048, k0_pay1 (k0_pay9 x1 x2 x3)⟩,
   ⟨Rect.unit ![0, 1024] S256x1024.size inb_S256x4096_S256x1024_0_1024, k0_pay8 x1 x2 x3⟩,
   ⟨Rect.unit ![0, 0] S256x1024.size inb_S256x4096_S256x1024_0_0, k0_pay7 x1 x2 x3⟩]

/-- The cache after the four stores. -/
def cache (x1 : Vec F S256x1024 .i32) (x2 x3 : Vec F S256x1024 .f32) : Vec F S256x4096 .bf16 :=
  View.canon (planes x1 x2 x3)

/-- The four planes tile the cache: every entry lies in one of them. -/
theorem planes_cover (x1 : Vec F S256x1024 .i32) (x2 x3 : Vec F S256x1024 .f32) (y : S256x4096.Idx) :
    ∃ pc ∈ planes x1 x2 x3, y ∈ pc.1.set :=
  View.cover_of_tiledL (planes x1 x2 x3) S256x1024.size (by sl_kernel_rfl) y

/-! ## One code of a masked word -/

theorem code0 (w : BitVec 32) : IntOp.andi (IntOp.shrsi .vector (IntOp.andi w 65535#32) 12#32) 15#32 = Spec.nib w 0 := by
  unfold IntOp.shrsi IntOp.andi
  rw [if_pos (by decide)]
  exact Spec.nib_mask w 0
theorem code1 (w : BitVec 32) : IntOp.andi (IntOp.shrsi .vector (IntOp.andi w 65535#32) 8#32) 15#32 = Spec.nib w 1 := by
  unfold IntOp.shrsi IntOp.andi
  rw [if_pos (by decide)]
  exact Spec.nib_mask w 1
theorem code2 (w : BitVec 32) : IntOp.andi (IntOp.shrsi .vector (IntOp.andi w 65535#32) 4#32) 15#32 = Spec.nib w 2 := by
  unfold IntOp.shrsi IntOp.andi
  rw [if_pos (by decide)]
  exact Spec.nib_mask w 2
theorem code3 (w : BitVec 32) : IntOp.andi (IntOp.shrsi .vector (IntOp.andi w 65535#32) 0#32) 15#32 = Spec.nib w 3 := by
  unfold IntOp.shrsi IntOp.andi
  rw [if_pos (by decide)]
  exact Spec.nib_mask w 3

/-! ## Each plane's payload at an entry, at the ideal values -/

section Ideal

variable (x1 : IVec S256x1024 32) (x2 x3 : FVec Ideal S256x1024 .f32)

/-- Code `p` of the word at `y`, dequantized by the scale and bias at `y`. -/
def planeAt (p : Fin 4) (y : S256x1024.Idx) : EReal :=
  (((Spec.nib (x1 y) p).toInt : ℝ) : EReal) * x2 y + x3 y

theorem plane0_apply (y : S256x1024.Idx) : k0_pay7 (F := Ideal) x1 x2 x3 y = planeAt x1 x2 x3 0 y := by
  unfold k0_pay7 k0_pay4 k0_pay5 k0_pay6
  simp only [shapeCast_self]
  show (((IntOp.andi (IntOp.shrsi .vector (IntOp.andi (x1 y) 65535#32) 12#32) 15#32).toInt : ℝ) : EReal) * x2 y + x3 y = _
  rw [code0]; rfl
theorem plane1_apply (y : S256x1024.Idx) : k0_pay8 (F := Ideal) x1 x2 x3 y = planeAt x1 x2 x3 1 y := by
  unfold k0_pay8 k0_pay4 k0_pay5 k0_pay6
  simp only [shapeCast_self]
  show (((IntOp.andi (IntOp.shrsi .vector (IntOp.andi (x1 y) 65535#32) 8#32) 15#32).toInt : ℝ) : EReal) * x2 y + x3 y = _
  rw [code1]; rfl
theorem plane2_apply (y : S256x1024.Idx) : k0_pay1 (F := Ideal) (k0_pay9 x1 x2 x3) y = planeAt x1 x2 x3 2 y := by
  unfold k0_pay1 k0_pay9 k0_pay4 k0_pay5 k0_pay6
  simp only [shapeCast_self]
  show (((IntOp.andi (IntOp.shrsi .vector (IntOp.andi (x1 y) 65535#32) 4#32) 15#32).toInt : ℝ) : EReal) * x2 y + x3 y = _
  rw [code2]; rfl
theorem plane3_apply (y : S256x1024.Idx) : k0_pay2 (F := Ideal) (k0_pay4 (F := Ideal) x1) (k0_pay5 (F := Ideal) x2) (k0_pay6 (F := Ideal) x3) y = planeAt x1 x2 x3 3 y := by
  unfold k0_pay2 k0_pay4 k0_pay5 k0_pay6
  simp only [shapeCast_self]
  show (((IntOp.andi (IntOp.shrsi .vector (IntOp.andi (x1 y) 65535#32) 0#32) 15#32).toInt : ℝ) : EReal) * x2 y + x3 y = _
  rw [code3]; rfl

/-! ## The cache at an entry -/

/-- The column inside its plane. -/
def inPlane (k : Fin 4096) : Fin 1024 := ⟨k.val % 1024, Nat.mod_lt _ (by decide)⟩

/-- Entry (q, k) of the cache: code `k / 1024` at column `k % 1024` of row q. -/
def cacheAt (q : Fin 256) (k : Fin 4096) : EReal := planeAt x1 x2 x3 (Spec.plP k) (ix2 q (inPlane k))

/-- A plane's entry (q, c), seen from the cache, is at (q, o + c) for the plane's column offset `o`. -/
theorem emb_plane (o : Nat) (inb : ∀ a, (![0, o] : Fin 2 → Nat) a + S256x1024.size a ≤ S256x4096.size a) (x : S256x1024.Idx) :
    ((Rect.unit (s := S256x4096) ![0, o] S256x1024.size inb).emb x 0).val = (x 0).val
    ∧ ((Rect.unit (s := S256x4096) ![0, o] S256x1024.size inb).emb x 1).val = o + (x 1).val := by
  constructor
  · show 0 + 1 * (x 0).val = _; omega
  · show o + 1 * (x 1).val = _; omega

/-- The cache's entry function over a whole index of the cache. -/
def cacheFn (y : S256x4096.Idx) : EReal :=
  cacheAt x1 x2 x3 ⟨(y 0).val, (y 0).isLt⟩ ⟨(y 1).val, (y 1).isLt⟩

/-- Read where plane `P` sits, the cache's entry function is that plane's payload. -/
theorem cacheFn_plane (P : Nat) (hP : P < 4) (inb : ∀ a, (![0, P * 1024] : Fin 2 → Nat) a + S256x1024.size a ≤ S256x4096.size a)
    (x : S256x1024.Idx) :
    cacheFn x1 x2 x3 ((Rect.unit (s := S256x4096) ![0, P * 1024] S256x1024.size inb).emb x) = planeAt x1 x2 x3 ⟨P, hP⟩ x := by
  obtain ⟨e0, e1⟩ := emb_plane (P * 1024) inb x
  have hx : (x 1).val < 1024 := (x 1).isLt
  generalize (Rect.unit (s := S256x4096) ![0, P * 1024] S256x1024.size inb).emb x = E at e0 e1
  unfold cacheFn cacheAt
  have hp : Spec.plP (⟨(E 1).val, (E 1).isLt⟩ : Fin 4096) = ⟨P, hP⟩ := by
    apply Fin.ext
    show (E 1).val / 1024 = P
    rw [e1]; omega
  have hy : ix2 (⟨(E 0).val, (E 0).isLt⟩ : Fin 256) (inPlane (⟨(E 1).val, (E 1).isLt⟩ : Fin 4096)) = x := by
    funext a
    apply Fin.ext
    match a with
    | ⟨0, _⟩ => exact e0
    | ⟨1, _⟩ =>
      show (E 1).val % 1024 = (x 1).val
      rw [e1]; omega
  rw [hp, hy]

/-- Every plane's payload is the cache's entry function read where the plane sits. -/
theorem planes_ok : ∀ p ∈ planes (F := Ideal) x1 x2 x3, ∀ x : p.1.shape.Idx, p.2 x = cacheFn x1 x2 x3 (p.1.emb x) := by
  intro p hp
  simp only [planes, List.mem_cons, List.mem_nil_iff, or_false] at hp
  rcases hp with rfl | rfl | rfl | rfl
  · intro x
    exact (plane3_apply x1 x2 x3 x).trans (cacheFn_plane x1 x2 x3 3 (by decide) inb_S256x4096_S256x1024_0_3072 x).symm
  · intro x
    exact (plane2_apply x1 x2 x3 x).trans (cacheFn_plane x1 x2 x3 2 (by decide) inb_S256x4096_S256x1024_0_2048 x).symm
  · intro x
    exact (plane1_apply x1 x2 x3 x).trans (cacheFn_plane x1 x2 x3 1 (by decide) inb_S256x4096_S256x1024_0_1024 x).symm
  · intro x
    exact (plane0_apply x1 x2 x3 x).trans (cacheFn_plane x1 x2 x3 0 (by decide) inb_S256x4096_S256x1024_0_0 x).symm

/-- THE CACHE, entry by entry. -/
theorem cache_apply (q : Fin 256) (k : Fin 4096) : cache (F := Ideal) x1 x2 x3 (ix2 q k) = cacheAt x1 x2 x3 q k := by
  have h := View.canon_apply_of_pieces (Val := Elt Ideal) (cacheFn x1 x2 x3) (planes (F := Ideal) x1 x2 x3) (planes_ok x1 x2 x3) (ix2 q k)
    (planes_cover (F := Ideal) x1 x2 x3 (ix2 q k))
  unfold cache
  exact h.trans rfl

end Ideal

end Cert.KernelIdeal.Tile

end
-- ==== Proof.KPieces.lean ====
/-
  What one run of the body leaves, in each of its two cases, as pure functions of what it loaded.

  At the first point of a weight tile the body rebuilds the cache from the three weight blocks and then
  multiplies: the cache it leaves is the four planes, and the output tile is the product of the x block
  with that fresh cache, plus the bias row.  At every other point it only multiplies: the output tile is
  the product of the x block with the cache the previous point left, plus the bias row, and the cache
  stays as it was.
-/
import proofs.«409624_j18382460026880_3_alg».proof.Proof.Gen.KernelIdeal.Frame
import proofs.«409624_j18382460026880_3_alg».proof.Proof.KScratch

set_option maxRecDepth 16384

noncomputable section

namespace Cert.KernelIdeal.Tile

open Cert.KernelIdeal Cert.KernelIdeal.Gen Idealize.ShloMosaic Idealize.ShloMosaic.TcCoe Idealize.ShloMosaic.Tactic Idealize.SL.Sem

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a <;> rfl

/-- The cache a rebuilding point leaves is the four planes of the weight blocks it loaded. -/
theorem cache_rebuilt (c : Dev nD) (i : grid0.Coords) (arg2 : Memref sig .tc .vmem S512x4096 .f32) (harg2 : arg2.IsWhole) (arg3 : Memref sig .tc .vmem S256x1024 .i32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S512x256 .f32) (harg7 : arg7.IsWhole) (arg8 : Memref sig .tc .vmem S256x4096 .bf16) (harg8 : arg8.IsWhole) (hc0 : cond0_0 i)
    (x0 : Vec F S512x4096 .f32) (x1 : Vec F S256x1024 .i32) (x2 : Vec F S256x1024 .f32) (x3 : Vec F S256x1024 .f32) (x4 : Vec F S256 .f32) :
    sout0_A_0 (F := F) c i arg2 harg2 arg3 harg3 arg4 harg4 arg5 harg5 arg6 harg6 arg7 harg7 arg8 harg8 hc0 x0 x1 x2 x3 x4 = cache x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A
  dsimp only
  sl_unfold_words
  simp only [View.readAt_eq_ld, harg3.read_unread, harg4.read_unread, harg5.read_unread, View.ld_unit_zero (S := S256x1024) zero2]
  rfl

/-- The tile a rebuilding point stores: the x block against the cache it has just rebuilt, plus the bias row. -/
theorem tile_rebuilt (c : Dev nD) (i : grid0.Coords) (arg2 : Memref sig .tc .vmem S512x4096 .f32) (harg2 : arg2.IsWhole) (arg3 : Memref sig .tc .vmem S256x1024 .i32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S512x256 .f32) (harg7 : arg7.IsWhole) (arg8 : Memref sig .tc .vmem S256x4096 .bf16) (harg8 : arg8.IsWhole) (hc0 : cond0_0 i)
    (x0 : Vec F S512x4096 .f32) (x1 : Vec F S256x1024 .i32) (x2 : Vec F S256x1024 .f32) (x3 : Vec F S256x1024 .f32) (x4 : Vec F S256 .f32) :
    out0_A_5 (F := F) c i arg2 harg2 arg3 harg3 arg4 harg4 arg5 harg5 arg6 harg6 arg7 harg7 arg8 harg8 hc0 x0 x1 x2 x3 x4 = k0_pay3 x0 (cache x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A
  dsimp only
  sl_unfold_words
  rw [View.canon_unit_zero zero2]
  simp only [View.readAt_eq_ld, harg2.read_unread, harg3.read_unread, harg4.read_unread, harg5.read_unread, harg6.read_unread,
    View.ld_unit_zero (S := S256x1024) zero2, View.ld_unit_zero (S := S512x4096) zero2, View.ld_unit_zero (S := S256) zero1]
  show k0_pay3 x0 (arg8.view.readCov (planes x1 x2 x3) (Rect.unit (s := S256x4096) ![0, 0] S256x4096.size inb_S256x4096_S256x4096_0_0).toLoadRect) x4 = _
  rw [View.readCov_eq_canon_ld _ _ _ (planes_cover x1 x2 x3), View.ld_unit_zero (S := S256x4096) zero2]
  rfl

/-- The tile any other point stores: the x block against the cache the previous point left, plus the bias row. -/
theorem tile_kept (c : Dev nD) (i : grid0.Coords) (arg2 : Memref sig .tc .vmem S512x4096 .f32) (harg2 : arg2.IsWhole) (arg3 : Memref sig .tc .vmem S256x1024 .i32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256 .f32) (harg6 : arg6.IsWhole) (arg7 : Memref sig .tc .vmem S512x256 .f32) (harg7 : arg7.IsWhole) (arg8 : Memref sig .tc .vmem S256x4096 .bf16) (harg8 : arg8.IsWhole) (hc0 : ¬cond0_0 i)
    (x0 : Vec F S512x4096 .f32) (x1 : Vec F S256x1024 .i32) (x2 : Vec F S256x1024 .f32) (x3 : Vec F S256x1024 .f32) (x4 : Vec F S256 .f32) (xs0 : Vec F S256x4096 .bf16) :
    out0_B_5 (F := F) c i arg2 harg2 arg3 harg3 arg4 harg4 arg5 harg5 arg6 harg6 arg7 harg7 arg8 harg8 hc0 x0 x1 x2 x3 x4 xs0 = k0_pay3 x0 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B
  dsimp only
  sl_unfold_words
  rw [View.canon_unit_zero zero2]
  simp only [View.readAt_eq_ld, harg2.read_unread, harg6.read_unread, harg8.read_unread,
    View.ld_unit_zero (S := S512x4096) zero2, View.ld_unit_zero (S := S256) zero1, View.ld_unit_zero (S := S256x4096) zero2]

end Cert.KernelIdeal.Tile

end
-- ==== Proof.KCarry.lean ====
/-
  The cached weight tile, point by point.

  After ANY point `t` the cache holds the dequantized weights of tile `t / 16`, laid plane-major:
  entry (q, k) is code `k / 1024` of the word at group `k % 1024 / 16`, slot `k % 16`, of output
  feature `(t / 16)·256 + q`, times that group's scale, plus its bias.

  By induction on the point.  A point with `t % 16 = 0` rebuilds the cache from the tile's three weight
  blocks, whatever it held before; the blocks are rows `(t / 16)·256 …` of the flattened words, scales and
  biases.  Any other point leaves the cache as the point before left it, and the point before is in the
  same tile.
-/
import proofs.«409624_j18382460026880_3_alg».proof.Proof.KBlocks
import proofs.«409624_j18382460026880_3_alg».proof.Proof.KHost
import proofs.«409624_j18382460026880_3_alg».proof.Proof.KPieces

set_option maxRecDepth 16384

noncomputable section

namespace Cert.KernelIdeal.Carry

open Cert.KernelIdeal Cert.KernelIdeal.Gen Idealize.ShloMosaic Idealize.ShloMosaic.TcCoe Idealize.SL.Sem
  Idealize.ShloMosaic.ValueIdx Cert.KernelIdeal.Tile Cert.KernelIdeal.Host Cert.KernelIdeal.Blocks

variable (m : (ℓ : Loc nD τ sig) → Buf (Elt Ideal) ℓ)

/-- The five arguments as launched, at their literal shapes. -/
abbrev argX (c : Dev nD) : FVec Ideal S8192x4096 .f32 := m ((c : Thread nD τ).loc main_arg0)
abbrev argW (c : Dev nD) : IVec S11008x64x16 32 := m ((c : Thread nD τ).loc main_arg1)
abbrev argS (c : Dev nD) : FVec Ideal S11008x64x1 .f32 := m ((c : Thread nD τ).loc main_arg2)
abbrev argB (c : Dev nD) : FVec Ideal S11008x64x1 .f32 := m ((c : Thread nD τ).loc main_arg3)
abbrev argO (c : Dev nD) : FVec Ideal S11008 .f32 := m ((c : Thread nD τ).loc main_arg4)

/-- The cache rebuilt from point `t`'s weight blocks is tile `t / 16` of the dequantized weights. -/
theorem fresh_apply (c : Dev nD) (t : Fin cfg0.N) (q : Fin 256) (k : Fin 4096) :
    cache (F := Ideal) (wblk m c t) (sblk m c t) (bblk m c t) (ix2 q k)
      = Spec.deq (argW m c) (argS m c) (argB m c) (wrow t q) (Spec.plG k) (Spec.plS k) (Spec.plP k) := by
  refine (cache_apply (wblk m c t) (sblk m c t) (bblk m c t) q k).trans ?_
  unfold cacheAt planeAt Spec.deq
  rw [wblk_apply, sblk_apply, bblk_apply, words_apply, scales_apply, biases_apply]
  have e : (⟨(inPlane k).val % 16, Nat.mod_lt _ (by decide)⟩ : Fin 16) = Spec.plS k :=
    Fin.ext (by show k.val % 1024 % 16 = k.val % 16; omega)
  rw [e]
  rfl

/-- A rebuilding point leaves tile `t / 16`. -/
theorem rebuilt (c : Dev nD) (t : Fin cfg0.N) (h0 : t.val % 16 = 0) (q : Fin 256) (k : Fin 4096) :
    ((outsAt0 m c t.val t.isLt).2 : S256x4096.Idx → EReal) (ix2 q k)
      = Spec.deq (argW m c) (argS m c) (argB m c) (wrow t q) (Spec.plG k) (Spec.plS k) (Spec.plP k) := by
  rw [outsAt0_A m c t h0]
  dsimp only
  exact (congrFun (cache_rebuilt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 q k)).trans
    (fresh_apply m c t q k)

/-- Any other point leaves what the point before left. -/
theorem kept (c : Dev nD) (t : Fin cfg0.N) (h0 : ¬t.val % 16 = 0) :
    (outsAt0 m c t.val t.isLt).2 = (outsAt0 m c (t.val - 1) (Nat.lt_of_le_of_lt (Nat.sub_le _ _) t.isLt)).2 := by
  rw [outsAt0_B m c t h0]
  rfl

/-- THE INVARIANT: after point `n` the cache is tile `n / 16` of the dequantized weights. -/
theorem carried (c : Dev nD) : ∀ (n : ℕ) (hn : n < cfg0.N) (q : Fin 256) (k : Fin 4096),
    ((outsAt0 m c n hn).2 : S256x4096.Idx → EReal) (ix2 q k)
      = Spec.deq (argW m c) (argS m c) (argB m c) (wrow ⟨n, hn⟩ q) (Spec.plG k) (Spec.plS k) (Spec.plP k) := by
  intro n
  induction n with
  | zero =>
    intro hn q k
    exact rebuilt m c ⟨0, hn⟩ (Nat.zero_mod _) q k
  | succ n ih =>
    intro hn q k
    by_cases h0 : (n + 1) % 16 = 0
    · exact rebuilt m c ⟨n + 1, hn⟩ h0 q k
    · have hk := kept m c ⟨n + 1, hn⟩ h0
      have hprev := ih (Nat.lt_of_succ_lt hn) q k
      have hrow : wrow (⟨n, Nat.lt_of_succ_lt hn⟩ : Fin cfg0.N) q = wrow (⟨n + 1, hn⟩ : Fin cfg0.N) q :=
        Fin.ext (by show n / 16 * 256 + q.val = (n + 1) / 16 * 256 + q.val; omega)
      rw [← hrow]
      refine Eq.trans ?_ hprev
      exact congrFun hk (ix2 q k)

end Cert.KernelIdeal.Carry

end
-- ==== Proof.KMatmul.lean ====
/-
  The body's last store, read at one entry.

  The stored tile is `A · Bᵀ + bias`: entry (a, q) is the sum over the 4096 shared columns of
  `A(a, k) · B(q, k)` — both operands are contracted along their SECOND axis, so the right operand is
  read row q, column k — plus entry q of the bias row, which is broadcast down the 512 rows.  Into a
  zero accumulator the product is just that sum, and at the ideal values the change of float format
  before the product is the identity.
-/
import proofs.«409624_j18382460026880_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## Which coordinate each operand axis reads -/

/-- The left operand's row is the output's row. -/
theorem lhs_0 (i : S512x256.Idx) (q : dot_S512x4096_S256x4096_S512x256_1_1_0_0_n_n.contr.Idx) :
    (dot_S512x4096_S256x4096_S512x256_1_1_0_0_n_n.lhsIdx i q 0).val = (i 0).val := by
  unfold DotDims.lhsIdx
  rw [dif_neg (show ¬(0 : Fin S512x4096.rank) ∈ dot_S512x4096_S256x4096_S512x256_1_1_0_0_n_n.lhsBatch by decide), dif_pos (show (0 : Fin S512x4096.rank) ∈ dot_S512x4096_S256x4096_S512x256_1_1_0_0_n_n.lhsNonContracting by decide)]
  rfl

/-- The left operand's column is the contracted coordinate. -/
theorem lhs_1 (i : S512x256.Idx) (q : dot_S512x4096_S256x4096_S512x256_1_1_0_0_n_n.contr.Idx) :
    (dot_S512x4096_S256x4096_S512x256_1_1_0_0_n_n.lhsIdx i q 1).val = (q ⟨0, by decide⟩).val :=
  dot_S512x4096_S256x4096_S512x256_1_1_0_0_n_n.lhsIdx_val_of_single rfl i q

/-- The right operand's row is the output's column. -/
theorem rhs_0 (i : S512x256.Idx) (q : dot_S512x4096_S256x4096_S512x256_1_1_0_0_n_n.contr.Idx) :
    (dot_S512x4096_S256x4096_S512x256_1_1_0_0_n_n.rhsIdx i q 0).val = (i 1).val := by
  unfold DotDims.rhsIdx
  rw [dif_neg (show ¬(0 : Fin S256x4096.rank) ∈ dot_S512x4096_S256x4096_S512x256_1_1_0_0_n_n.rhsBatch by decide), dif_pos (show (0 : Fin S256x4096.rank) ∈ dot_S512x4096_S256x4096_S512x256_1_1_0_0_n_n.rhsNonContracting by decide)]
  rfl

/-- The right operand's column is the contracted coordinate. -/
theorem rhs_1 (i : S512x256.Idx) (q : dot_S512x4096_S256x4096_S512x256_1_1_0_0_n_n.contr.Idx) :
    (dot_S512x4096_S256x4096_S512x256_1_1_0_0_n_n.rhsIdx i q 1).val = (q ⟨0, by decide⟩).val :=
  dot_S512x4096_S256x4096_S512x256_1_1_0_0_n_n.rhsIdx_val_of_single rfl i q

/-! ## The product into zero, at an entry -/

/-- Entry (a, q) of `A · Bᵀ` accumulated into zero is `∑ k, A(a, k) · B(q, k)`. -/
theorem matmul_at (A : FVec Ideal S512x4096 .bf16) (B : FVec Ideal S256x4096 .bf16) (a : Fin 512) (q : Fin 256) :
    matmul (F := Ideal) dot_S512x4096_S256x4096_S512x256_1_1_0_0_n_n none A B (constant S512x256 .f32 0x00000000#32) (ix2 a q)
      = ∑ k : Fin 4096, A (ix2 a k) * B (ix2 q k) := by
  show FloatOps.matmul _ none A B _ (ix2 a q) = _
  rw [Ideal.matmul_constant_zero_apply, ← Equiv.sum_comp (contrEquiv1 dot_S512x4096_S256x4096_S512x256_1_1_0_0_n_n 4096 rfl rfl).symm]
  refine Finset.sum_congr rfl fun k _ => ?_
  have hk := contrEquiv1_symm_val dot_S512x4096_S256x4096_S512x256_1_1_0_0_n_n 4096 rfl rfl k
  have el : dot_S512x4096_S256x4096_S512x256_1_1_0_0_n_n.lhsIdx (ix2 a q) ((contrEquiv1 dot_S512x4096_S256x4096_S512x256_1_1_0_0_n_n 4096 rfl rfl).symm k) = ix2 a k := funext fun ax => Fin.ext (by
    match ax with
    | ⟨0, _⟩ => exact lhs_0 _ _
    | ⟨1, _⟩ => exact (lhs_1 _ _).trans hk)
  have er : dot_S512x4096_S256x4096_S512x256_1_1_0_0_n_n.rhsIdx (ix2 a q) ((contrEquiv1 dot_S512x4096_S256x4096_S512x256_1_1_0_0_n_n 4096 rfl rfl).symm k) = ix2 q k := funext fun ax => Fin.ext (by
    match ax with
    | ⟨0, _⟩ => exact rhs_0 _ _
    | ⟨1, _⟩ => exact (rhs_1 _ _).trans hk)
  rw [el, er]

/-! ## The stored tile -/

/-- Entry (a, q) of the tile the body stores: the row of the x block against row q of the weight tile,
    plus the bias of column q. -/
theorem tile_apply (x0 : FVec Ideal S512x4096 .f32) (ws : FVec Ideal S256x4096 .bf16) (x4 : FVec Ideal S256 .f32)
    (a : Fin 512) (q : Fin 256) :
    k0_pay3 (F := Ideal) x0 ws x4 (ix2 a q) = (∑ k : Fin 4096, x0 (ix2 a k) * ws (ix2 q k)) + x4 (ix1 q) := by
  unfold k0_pay3
  rw [addf_apply, matmul_at, broadcastTo_1b_ab_apply]
  simp only [shapeCast_self, shapeCast_a_1a_apply, truncf_apply]

end Cert.KernelIdeal.Tile

end
-- ==== Proof.KResult.lean ====
/-
  The kernel's result array.

  At every point `t` the body stores the 512 × 256 tile `xblock · cacheᵀ + bias`, and the cache then holds
  tile `t / 16` of the dequantized weights (rebuilt at this point, or carried from the point before).
  Read entry by entry, with the x block's columns plane-major and the cache plane-major too, the tile's
  entry (a, q) is entry (`(t % 16)·512 + a`, `(t / 16)·256 + q`) of `x · weightᵀ + b`: the plane-major sum
  over the columns is the group-major one, the terms only listed in another order.  So what point `t`
  writes back is block `t` of that array.  The 16 × 43 blocks tile the 8192 × 11008 result — entry (i, j)
  lies in the block of point `(j / 256)·16 + i / 512` — so after the last point the result array is
  `x · weightᵀ + b` everywhere.
-/
import proofs.«409624_j18382460026880_3_alg».proof.Proof.Gen.KernelIdeal.Value
import proofs.«409624_j18382460026880_3_alg».proof.Proof.KCarry
import proofs.«409624_j18382460026880_3_alg».proof.Proof.KMatmul

set_option maxRecDepth 16384

noncomputable section

namespace Cert.KernelIdeal.Result

open Cert.KernelIdeal Cert.KernelIdeal.Gen Idealize.ShloMosaic Idealize.ShloMosaic.TcCoe Idealize.SL.Sem
  Idealize.ShloMosaic.ValueIdx Cert.KernelIdeal.Tile Cert.KernelIdeal.Host Cert.KernelIdeal.Blocks Cert.KernelIdeal.Carry
open Idealize.ShloMosaic.Pipeline (Dat)

variable (m : (ℓ : Loc nD τ sig) → Buf (Elt Ideal) ℓ) (ρ : Dev nD → PrngReg)

/-- `x · weightᵀ + b` of the arguments as launched. -/
abbrev want (c : Dev nD) : FVec Ideal S8192x11008 .f32 :=
  Spec.out (argX m c) (argW m c) (argS m c) (argB m c) (argO m c)

/-- The stored tile, entry by entry, for ANY cache that holds tile `t / 16` of the dequantized weights. -/
theorem tile_entry (c : Dev nD) (t : Fin cfg0.N) (ws : FVec Ideal S256x4096 .bf16)
    (hws : ∀ (q : Fin 256) (k : Fin 4096), ws (ix2 q k)
      = Spec.deq (argW m c) (argS m c) (argB m c) (wrow t q) (Spec.plG k) (Spec.plS k) (Spec.plP k))
    (a : Fin 512) (q : Fin 256) :
    k0_pay3 (F := Ideal) (xblk m c t) ws (oblk m c t) (ix2 a q)
      = Spec.outAt (argX m c) (argW m c) (argS m c) (argB m c) (argO m c) (xrow t a) (wrow t q) := by
  refine (tile_apply (xblk m c t) ws (oblk m c t) a q).trans ?_
  rw [Spec.outAt_planeMajor]
  congr 1
  · refine Finset.sum_congr rfl fun k _ => ?_
    rw [xblk_apply, xcols_apply, hws]
  · rw [oblk_apply]
    exact congrFun (V_main_arg4 m c) (ix1 (wrow t q))

/-- What point `t` writes back, entry by entry. -/
theorem flushed_apply (c : Dev nD) (t : Fin cfg0.N) (a : Fin 512) (q : Fin 256) :
    ((dats m 0 c).flushed 5 t : S512x256.Idx → EReal) (ix2 a q)
      = Spec.outAt (argX m c) (argW m c) (argS m c) (argB m c) (argO m c) (xrow t a) (wrow t q) := by
  by_cases h0 : t.val % 16 = 0
  · have s1 : ((dats m 0 c).flushed 5 t : S512x256.Idx → EReal) (ix2 a q)
        = ((cfg0.win 5).cut (grid0.coords t) (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) : S512x256.Idx → EReal) (ix2 a q) :=
      congrFun (Value.flushed5_A m c t h0) (ix2 a q)
    have s2 := cut_apply t (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 a q)
    have s3 := congrFun (tile_rebuilt (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) (ix2 a q)
    have s4 := tile_entry m c t (cache (F := Ideal) (wblk m c t) (sblk m c t) (bblk m c t)) (fresh_apply m c t) a q
    exact s1.trans (s2.trans (s3.trans s4))
  · have s1 : ((dats m 0 c).flushed 5 t : S512x256.Idx → EReal) (ix2 a q)
        = ((cfg0.win 5).cut (grid0.coords t) (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) : S512x256.Idx → EReal) (ix2 a q) :=
      congrFun (Value.flushed5_B m c t h0) (ix2 a q)
    have s2 := cut_apply t (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) (ix2 a q)
    have s3 := congrFun (tile_kept (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2) (ix2 a q)
    have hws : ∀ (q' : Fin 256) (k : Fin 4096), ((outsAt0 m c (t.val - 1) (Nat.lt_of_le_of_lt (Nat.sub_le _ _) t.isLt)).2 : S256x4096.Idx → EReal) (ix2 q' k)
        = Spec.deq (argW m c) (argS m c) (argB m c) (wrow t q') (Spec.plG k) (Spec.plS k) (Spec.plP k) := by
      intro q' k
      have hrow : wrow (⟨t.val - 1, Nat.lt_of_le_of_lt (Nat.sub_le _ _) t.isLt⟩ : Fin cfg0.N) q' = wrow t q' :=
        Fin.ext (by show (t.val - 1) / 16 * 256 + q'.val = t.val / 16 * 256 + q'.val; omega)
      rw [← hrow]
      exact carried m c (t.val - 1) (Nat.lt_of_le_of_lt (Nat.sub_le _ _) t.isLt) q' k
    have s4 := tile_entry m c t (outsAt0 m c (t.val - 1) (Nat.lt_of_le_of_lt (Nat.sub_le _ _) t.isLt)).2 hws a q
    exact s1.trans (s2.trans (s3.trans s4))

/-- WHAT POINT `t` WRITES BACK is block `t` of `x · weightᵀ + b`. -/
theorem flushed_eq (c : Dev nD) (t : Fin cfg0.N) :
    (dats m 0 c).flushed 5 t = ((cfg0.win 5).blk t).view.read (Elt Ideal) (want m c) := by
  funext y
  obtain ⟨a, q, rfl⟩ : ∃ (a : Fin 512) (q : Fin 256), (y : S512x256.Idx) = ix2 a q :=
    ⟨⟨(y 0).val, (y 0).isLt⟩, ⟨(y 1).val, (y 1).isLt⟩, funext fun ax => match ax with | ⟨0, _⟩ => rfl | ⟨1, _⟩ => rfl⟩
  show ((dats m 0 c).flushed 5 t : S512x256.Idx → EReal) (ix2 a q) = want m c (((cfg0.win 5).blk t).view.emb (ix2 a q))
  rw [out_emb t a q]
  exact (flushed_apply m c t a q).trans (Spec.out_apply _ _ _ _ _ _ _).symm

/-- An entry of the result array is in point `t`'s block iff each coordinate is in the block's range. -/
theorem mem_blk (t : Fin cfg0.N) (i : S8192x11008.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v10).slice (win0_5.rect t)).set ↔ _
  rw [View.set_slice_whole, Rect.mem_set_unit]
  exact Iff.rfl

/-- Every entry of the result array lies in some point's block. -/
theorem covered (i : S8192x11008.Idx) :
    ∃ t : Fin cfg0.N, (cfg0.win 5).flush t = true ∧ i ∈ ((cfg0.win 5).blk t).view.set := by
  have hi0 : (i 0).val < 8192 := (i 0).isLt
  have hi1 : (i 1).val < 11008 := (i 1).isLt
  have hN : cfg0.N = 688 := N_0
  have hlt : (i 1).val / 256 * 16 + (i 0).val / 512 < cfg0.N := by rw [hN]; omega
  obtain ⟨-, -, -, -, -, -, -, -, -, e50, e51⟩ := idx_facts ⟨(i 1).val / 256 * 16 + (i 0).val / 512, hlt⟩
  refine ⟨⟨(i 1).val / 256 * 16 + (i 0).val / 512, hlt⟩, flush0_5 _, ?_⟩
  rw [mem_blk]
  intro a
  match a with
  | ⟨0, _⟩ =>
    show win0_5.index ⟨(i 1).val / 256 * 16 + (i 0).val / 512, hlt⟩ (0 : Fin 2) * 512 ≤ (i 0).val
      ∧ (i 0).val < win0_5.index ⟨(i 1).val / 256 * 16 + (i 0).val / 512, hlt⟩ (0 : Fin 2) * 512 + 512
    rw [e50]
    show ((i 1).val / 256 * 16 + (i 0).val / 512) % 16 * 512 ≤ (i 0).val ∧ (i 0).val < ((i 1).val / 256 * 16 + (i 0).val / 512) % 16 * 512 + 512
    omega
  | ⟨1, _⟩ =>
    show win0_5.index ⟨(i 1).val / 256 * 16 + (i 0).val / 512, hlt⟩ (1 : Fin 2) * 256 ≤ (i 1).val
      ∧ (i 1).val < win0_5.index ⟨(i 1).val / 256 * 16 + (i 0).val / 512, hlt⟩ (1 : Fin 2) * 256 + 256
    rw [e51]
    show ((i 1).val / 256 * 16 + (i 0).val / 512) / 16 * 256 ≤ (i 1).val ∧ (i 1).val < ((i 1).val / 256 * 16 + (i 0).val / 512) / 16 * 256 + 256
    omega

/-- THE RESULT ARRAY after the run is `x · weightᵀ + b`. -/
theorem final (c : Dev nD) : (dats m 0 c).arrAt 5 cfg0.N = want m c :=
  (dats m 0 c).arrAt_eq_of_cover 5 (want m c) (fun t _ => flushed_eq m c t) covered

/-- Every weakly fair execution of the kernel's program terminates with the result buffer at `x · weightᵀ + b` of the
    arguments as launched, and the arguments unchanged. -/
theorem run_out : θ_run (defs (F := Ideal)) (onTc (τ := τ) (main (F := Ideal))) ⟨m, fun _ => 0, ρ⟩ fun r => ∀ c : Dev nD,
      r.2.mem ((c : Thread nD τ).loc main_v10) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run (defs (F := Ideal)) _ _).mono (fun r h c => ⟨(h c).1.trans (final m c), (h c).2⟩) (Value.run_blocks m ρ)

end Cert.KernelIdeal.Result

end
-- ==== Proof.RefRun.lean ====
/-
  The reference program's @main as a list of its 22 host operations, and its run read back: every weakly
  fair execution terminates with the result buffer at the operations' composed pure term of the five
  argument arrays (`refTerm`), the arguments unchanged.

  The term, inside out: each packed word is repeated along a new last axis of length four and shifted
  right (arithmetically) by the offset table [12, 8, 4, 0] laid along that axis; the low four bits are
  kept; the [11008, 64, 16, 4] array of codes is re-laid as [11008, 64, 64]; each code is converted to a
  float, multiplied by its group's scale and added to its group's bias (both repeated along the last
  axis); the result is re-laid as the [11008, 4096] weight matrix, transposed, contracted with the
  activations over the 4096 columns, and the bias vector, repeated along the rows, is added.
-/
import proofs.«409624_j18382460026880_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 22 operations, in order. -/
abbrev ops : List (HloOp τ sig (Elt F)) :=
  [ nullary main_c (fun i => lit0 (S4.rowMajor i)),
    unary main_arg1 main_v0 (broadcastInDim S11008x64x16x1 ![0, 1, 2] bcast_S11008x64x16_S11008x64x16x1_0_1_2 : (⟨S11008x64x16, .i32⟩ : BufTy).Contents (Elt F) → (⟨S11008x64x16x1, .i32⟩ : BufTy).Contents (Elt F)),
    unary main_c main_v1 (broadcastInDim S1x1x1x4 ![3] bcast_S4_S1x1x1x4_3 : (⟨S4, .i32⟩ : BufTy).Contents (Elt F) → (⟨S1x1x1x4, .i32⟩ : BufTy).Contents (Elt F)),
    unary main_v0 main_v2 (broadcastInDim S11008x64x16x4 ![0, 1, 2, 3] bcast_S11008x64x16x1_S11008x64x16x4_0_1_2_3 : (⟨S11008x64x16x1, .i32⟩ : BufTy).Contents (Elt F) → (⟨S11008x64x16x4, .i32⟩ : BufTy).Contents (Elt F)),
    unary main_v1 main_v3 (broadcastInDim S11008x64x16x4 ![0, 1, 2, 3] bcast_S1x1x1x4_S11008x64x16x4_0_1_2_3 : (⟨S1x1x1x4, .i32⟩ : BufTy).Contents (Elt F) → (⟨S11008x64x16x4, .i32⟩ : BufTy).Contents (Elt F)),
    binary main_v2 main_v3 main_v4 (Host.shrsi : (⟨S11008x64x16x4, .i32⟩ : BufTy).Contents (Elt F) → (⟨S11008x64x16x4, .i32⟩ : BufTy).Contents (Elt F) → (⟨S11008x64x16x4, .i32⟩ : BufTy).Contents (Elt F)),
    nullary main_c_0 (constantI S_ 32 15#32),
    unary main_c_0 main_v5 (broadcastInDim S11008x64x16x4 ![] bcast_S_S11008x64x16x4 : (⟨S_, .i32⟩ : BufTy).Contents (Elt F) → (⟨S11008x64x16x4, .i32⟩ : BufTy).Contents (Elt F)),
    binary main_v4 main_v5 main_v6 (andi : (⟨S11008x64x16x4, .i32⟩ : BufTy).Contents (Elt F) → (⟨S11008x64x16x4, .i32⟩ : BufTy).Contents (Elt F) → (⟨S11008x64x16x4, .i32⟩ : BufTy).Contents (Elt F)),
    reshape main_v6 main_v7 rfl shapeCasts_S11008x64x16x4_S11008x64x64,
    unary main_v7 main_v8 (sitofp .f32 : (⟨S11008x64x64, .i32⟩ : BufTy).Contents (Elt F) → (⟨S11008x64x64, .f32⟩ : BufTy).Contents (Elt F)),
    unary main_arg2 main_v9 (broadcastInDim S11008x64x64 ![0, 1, 2] bcast_S11008x64x1_S11008x64x64_0_1_2 : (⟨S11008x64x1, .f32⟩ : BufTy).Contents (Elt F) → (⟨S11008x64x64, .f32⟩ : BufTy).Contents (Elt F)),
    binary main_v8 main_v9 main_v10 (mulf : (⟨S11008x64x64, .f32⟩ : BufTy).Contents (Elt F) → (⟨S11008x64x64, .f32⟩ : BufTy).Contents (Elt F) → (⟨S11008x64x64, .f32⟩ : BufTy).Contents (Elt F)),
    unary main_arg3 main_v11 (broadcastInDim S11008x64x64 ![0, 1, 2] bcast_S11008x64x1_S11008x64x64_0_1_2 : (⟨S11008x64x1, .f32⟩ : BufTy).Contents (Elt F) → (⟨S11008x64x64, .f32⟩ : BufTy).Contents (Elt F)),
    binary main_v10 main_v11 main_v12 (addf : (⟨S11008x64x64, .f32⟩ : BufTy).Contents (Elt F) → (⟨S11008x64x64, .f32⟩ : BufTy).Contents (Elt F) → (⟨S11008x64x64, .f32⟩ : BufTy).Contents (Elt F)),
    reshape main_v12 main_v13 rfl shapeCasts_S11008x64x64_S11008x4096,
    unary main_v13 main_v14 ((transpose S4096x11008 [1, 0] · transposes_S11008x4096_S4096x11008_1_0) : (⟨S11008x4096, .f32⟩ : BufTy).Contents (Elt F) → (⟨S4096x11008, .f32⟩ : BufTy).Contents (Elt F)),
    binary main_arg0 main_v14 main_v15 ((fun l r => Host.dotGeneral dot_S8192x4096_S4096x11008_S8192x11008_1_0_0_1_n_n none l r) : (⟨S8192x4096, .f32⟩ : BufTy).Contents (Elt F) → (⟨S4096x11008, .f32⟩ : BufTy).Contents (Elt F) → (⟨S8192x11008, .f32⟩ : BufTy).Contents (Elt F)),
    unary main_arg4 main_v16 (broadcastInDim S1x11008 ![1] bcast_S11008_S1x11008_1 : (⟨S11008, .f32⟩ : BufTy).Contents (Elt F) → (⟨S1x11008, .f32⟩ : BufTy).Contents (Elt F)),
    unary main_v16 main_v17 (broadcastInDim S8192x11008 ![0, 1] bcast_S1x11008_S8192x11008_0_1 : (⟨S1x11008, .f32⟩ : BufTy).Contents (Elt F) → (⟨S8192x11008, .f32⟩ : BufTy).Contents (Elt F)),
    binary main_v15 main_v17 main_v18 (addf : (⟨S8192x11008, .f32⟩ : BufTy).Contents (Elt F) → (⟨S8192x11008, .f32⟩ : BufTy).Contents (Elt F) → (⟨S8192x11008, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub ..,
   nullary_bufs_sub .., unary_bufs_sub .., binary_bufs_sub .., reshape_bufs_sub .., unary_bufs_sub .., unary_bufs_sub ..,
   binary_bufs_sub .., unary_bufs_sub .., binary_bufs_sub .., reshape_bufs_sub .., unary_bufs_sub .., binary_bufs_sub ..,
   unary_bufs_sub .., unary_bufs_sub .., binary_bufs_sub ..⟩

/-! ## The composed term -/

/-- The four codes of every word, as integers: the word repeated along a new last axis, shifted right by the
    offset laid along that axis, the low four bits kept. Shape [11008, 64, 16, 4]. -/
def codes (w : IVec S11008x64x16 32) : (⟨S11008x64x16x4, .i32⟩ : BufTy).Contents (Elt F) :=
  andi
    (Host.shrsi
      (broadcastInDim S11008x64x16x4 ![0, 1, 2, 3] bcast_S11008x64x16x1_S11008x64x16x4_0_1_2_3
        (broadcastInDim S11008x64x16x1 ![0, 1, 2] bcast_S11008x64x16_S11008x64x16x1_0_1_2 w))
      (broadcastInDim S11008x64x16x4 ![0, 1, 2, 3] bcast_S1x1x1x4_S11008x64x16x4_0_1_2_3
        (broadcastInDim S1x1x1x4 ![3] bcast_S4_S1x1x1x4_3 (fun i => lit0 (S4.rowMajor i)))))
    (broadcastInDim S11008x64x16x4 ![] bcast_S_S11008x64x16x4 (constantI S_ 32 15#32))

/-- The dequantized weights, grouped: code · scale + bias over [11008, 64, 64]. -/
def weights3 (w : IVec S11008x64x16 32) (sc bi : FVec F S11008x64x1 .f32) : FVec F S11008x64x64 .f32 :=
  addf
    (mulf
      (sitofp .f32 (shapeCast S11008x64x64 (codes (F := F) w) shapeCasts_S11008x64x16x4_S11008x64x64))
      (broadcastInDim S11008x64x64 ![0, 1, 2] bcast_S11008x64x1_S11008x64x64_0_1_2 sc))
    (broadcastInDim S11008x64x64 ![0, 1, 2] bcast_S11008x64x1_S11008x64x64_0_1_2 bi)

/-- What the run leaves in the result buffer, as a function of the five argument arrays. -/
def refTerm (x : FVec F S8192x4096 .f32) (w : IVec S11008x64x16 32) (sc bi : FVec F S11008x64x1 .f32)
    (b : FVec F S11008 .f32) : FVec F S8192x11008 .f32 :=
  addf
    (Host.dotGeneral dot_S8192x4096_S4096x11008_S8192x11008_1_0_0_1_n_n none x
      (transpose S4096x11008 [1, 0]
        (shapeCast S11008x4096 (weights3 w sc bi) shapeCasts_S11008x64x64_S11008x4096)
        transposes_S11008x4096_S4096x11008_1_0))
    (broadcastInDim S8192x11008 ![0, 1] bcast_S1x11008_S8192x11008_0_1
      (broadcastInDim S1x11008 ![1] bcast_S11008_S1x11008_1 b))

/-- On every device, for any float values, from any memory with zero counters: every weakly fair execution of
    @main terminates with the result at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v18).trans (by unfold refTerm weights3 codes; after_results; rfl),
      (h c main_arg0).trans (by after_results),
      (h c main_arg1).trans (by after_results),
      (h c main_arg2).trans (by after_results),
      (h c main_arg3).trans (by after_results),
      (h c main_arg4).trans (by after_results)⟩)
    (run_seq scopedRefs_eq scopedSems_eq defs main (fun _ => ops) main_eq (fun _ => ops_sub) m ρ)

end Cert.ReferenceIdeal.RefRun

end
-- ==== Proof.RefValue.lean ====
/-
  At exact real arithmetic the reference's composed term is the specification, index by index.

  Entry (t, r) of the result is the contraction over the 4096 columns k of x[t, k] with the weight
  matrix at (r, k), plus b[r].  The weight at (r, k) is read through two re-layings of the same
  row-major data: column k of [11008, 4096] is position (k / 64, k % 64) of [11008, 64, 64], and
  position c of a group's 64 is (c / 4, c % 4) of [11008, 64, 16, 4].  So column k is code number
  k % 4 of the word at slot k % 64 / 4 of group k / 64, which is how the specification names it.
  The code itself is the word shifted right by its offset and masked to four bits; every offset is
  below 32, so the shift is the plain arithmetic shift.
-/
import proofs.«409624_j18382460026880_3_alg».proof.Proof.RefRun
import proofs.«409624_j18382460026880_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe
  Idealize.SL.Sem Idealize.ShloMosaic.StableHlo Idealize.ShloMosaic.ValueIdx

/-! ## The integer stages: the four codes of a word -/

/-- Every offset is below the word width. -/
theorem shiftOf_lt (p : Fin 4) : (Cert.Spec.shiftOf p).toNat < 32 := by
  match p with
  | 0 => decide
  | 1 => decide
  | 2 => decide
  | 3 => decide

/-- The offset table is the specification's offsets. -/
theorem lit0_eq (p : Fin 4) : lit0 (S4.rowMajor (ix1 p)) = Cert.Spec.shiftOf p := by
  have e : S4.rowMajor (ix1 p) = p := Fin.ext (Shape.rowMajor_val_one _)
  rw [e]
  match p with
  | 0 => rfl
  | 1 => rfl
  | 2 => rfl
  | 3 => rfl

/-- The offset table laid along the last axis: position (r, g, s, p) holds the offset of code p. -/
theorem shifts_apply (r : Fin 11008) (g : Fin 64) (s : Fin 16) (p : Fin 4) :
    broadcastInDim S11008x64x16x4 ![0, 1, 2, 3] bcast_S1x1x1x4_S11008x64x16x4_0_1_2_3
        (broadcastInDim S1x1x1x4 ![3] bcast_S4_S1x1x1x4_3 (fun i => lit0 (S4.rowMajor i))) (ix4 r g s p)
      = Cert.Spec.shiftOf p :=
  (broadcastInDim_apply _ _ _ (ix4 r g s p) (ix4 (0 : Fin 1) (0 : Fin 1) (0 : Fin 1) p)
      (fun a => match a with | ⟨0, _⟩ => rfl | ⟨1, _⟩ => rfl | ⟨2, _⟩ => rfl | ⟨3, _⟩ => rfl)).trans
    ((broadcastInDim_apply _ _ _ (ix4 (0 : Fin 1) (0 : Fin 1) (0 : Fin 1) p) (ix1 p)
      (fun a => match a with | ⟨0, _⟩ => rfl)).trans (lit0_eq p))

/-- The words repeated along the new last axis: position (r, g, s, p) holds the word at (r, g, s). -/
theorem words_apply (w : IVec S11008x64x16 32) (r : Fin 11008) (g : Fin 64) (s : Fin 16) (p : Fin 4) :
    broadcastInDim S11008x64x16x4 ![0, 1, 2, 3] bcast_S11008x64x16x1_S11008x64x16x4_0_1_2_3
        (broadcastInDim S11008x64x16x1 ![0, 1, 2] bcast_S11008x64x16_S11008x64x16x1_0_1_2 w) (ix4 r g s p)
      = w (ix3 r g s) :=
  (broadcastInDim_apply _ _ _ (ix4 r g s p) (ix4 r g s (0 : Fin 1))
      (fun a => match a with | ⟨0, _⟩ => rfl | ⟨1, _⟩ => rfl | ⟨2, _⟩ => rfl | ⟨3, _⟩ => rfl)).trans
    (broadcastInDim_apply _ _ _ (ix4 r g s (0 : Fin 1)) (ix3 r g s)
      (fun a => match a with | ⟨0, _⟩ => rfl | ⟨1, _⟩ => rfl | ⟨2, _⟩ => rfl))

/-- Position (r, g, s, p) of the code array is code p of the word at (r, g, s). -/
theorem codes_apply (w : IVec S11008x64x16 32) (r : Fin 11008) (g : Fin 64) (s : Fin 16) (p : Fin 4) :
    codes (F := Ideal) w (ix4 r g s p) = Cert.Spec.nib (w (ix3 r g s)) p := by
  unfold codes
  show IntOp.andi (IntOp.shrsi .host
      (broadcastInDim S11008x64x16x4 ![0, 1, 2, 3] bcast_S11008x64x16x1_S11008x64x16x4_0_1_2_3
        (broadcastInDim S11008x64x16x1 ![0, 1, 2] bcast_S11008x64x16_S11008x64x16x1_0_1_2 w) (ix4 r g s p))
      (broadcastInDim S11008x64x16x4 ![0, 1, 2, 3] bcast_S1x1x1x4_S11008x64x16x4_0_1_2_3
        (broadcastInDim S1x1x1x4 ![3] bcast_S4_S1x1x1x4_3 (fun i => lit0 (S4.rowMajor i))) (ix4 r g s p)))
      (15#32) = _
  rw [words_apply, shifts_apply]
  unfold IntOp.andi IntOp.shrsi Cert.Spec.nib
  rw [if_pos (shiftOf_lt p)]

/-! ## The two re-layings -/

/-- [11008, 64, 16, 4] re-laid as [11008, 64, 64]: position c of a group is slot c / 4, code c % 4. -/
theorem cast43_apply {α : Type} (X : S11008x64x16x4.Idx → α) (r : Fin 11008) (g : Fin 64) (c : Fin 64) :
    shapeCast S11008x64x64 X shapeCasts_S11008x64x16x4_S11008x64x64 (ix3 r g c)
      = X (ix4 r g (⟨c.val / 4, by have := c.isLt; omega⟩ : Fin 16) (⟨c.val % 4, by omega⟩ : Fin 4)) := by
  refine shapeCast_apply X _ _ _ ?_
  rw [Shape.rowMajor_val_four, Shape.rowMajor_val_three]
  show ((r.val * 64 + g.val) * 16 + c.val / 4) * 4 + c.val % 4 = (r.val * 64 + g.val) * 64 + c.val
  omega

/-- [11008, 64, 64] re-laid as [11008, 4096]: column k is group k / 64, position k % 64. -/
theorem cast32_apply {α : Type} (Y : S11008x64x64.Idx → α) (r : Fin 11008) (k : Fin 4096) :
    shapeCast S11008x4096 Y shapeCasts_S11008x64x64_S11008x4096 (ix2 r k)
      = Y (ix3 r (⟨k.val / 64, by have := k.isLt; omega⟩ : Fin 64) (⟨k.val % 64, by omega⟩ : Fin 64)) := by
  refine shapeCast_apply Y _ _ _ ?_
  rw [Shape.rowMajor_val_three, Shape.rowMajor_val_two]
  show (r.val * 64 + k.val / 64) * 64 + k.val % 64 = r.val * 4096 + k.val
  omega

/-! ## The float stages -/

/-- A per-group value repeated along the group's 64 positions. -/
theorem group_apply (v : FVec Ideal S11008x64x1 .f32) (r : Fin 11008) (g : Fin 64) (c : Fin 64) :
    broadcastInDim S11008x64x64 ![0, 1, 2] bcast_S11008x64x1_S11008x64x64_0_1_2 v (ix3 r g c) = v (ix3 r g (0 : Fin 1)) :=
  broadcastInDim_apply _ _ _ (ix3 r g c) (ix3 r g (0 : Fin 1))
    (fun a => match a with | ⟨0, _⟩ => rfl | ⟨1, _⟩ => rfl | ⟨2, _⟩ => rfl)

/-- The grouped weights at (r, g, c): the code at slot c / 4, number c % 4, times the group's scale, plus its bias. -/
theorem weights3_apply (w : IVec S11008x64x16 32) (sc bi : FVec Ideal S11008x64x1 .f32)
    (r : Fin 11008) (g : Fin 64) (c : Fin 64) :
    weights3 (F := Ideal) w sc bi (ix3 r g c)
      = Cert.Spec.deq w sc bi r g (⟨c.val / 4, by have := c.isLt; omega⟩ : Fin 16) (⟨c.val % 4, by omega⟩ : Fin 4) := by
  unfold weights3 Cert.Spec.deq
  rw [addf_apply, mulf_apply, sitofp_apply, cast43_apply, codes_apply, group_apply, group_apply]
  rfl

/-- The weight matrix at (r, k), in the specification's names for column k. -/
theorem weight_apply (w : IVec S11008x64x16 32) (sc bi : FVec Ideal S11008x64x1 .f32) (r : Fin 11008) (k : Fin 4096) :
    shapeCast S11008x4096 (weights3 (F := Ideal) w sc bi) shapeCasts_S11008x64x64_S11008x4096 (ix2 r k)
      = Cert.Spec.deq w sc bi r (Cert.Spec.colG k) (Cert.Spec.colS k) (Cert.Spec.colP k) := by
  rw [cast32_apply, weights3_apply]
  have eS : (⟨k.val % 64 / 4, by omega⟩ : Fin 16) = Cert.Spec.colS k := rfl
  have eP : (⟨k.val % 64 % 4, by omega⟩ : Fin 4) = Cert.Spec.colP k := Fin.ext (by show k.val % 64 % 4 = k.val % 4; omega)
  rw [eS, eP]
  rfl

/-! ## The contraction -/

theorem lhs_0 (i : S8192x11008.Idx) (q : dot_S8192x4096_S4096x11008_S8192x11008_1_0_0_1_n_n.contr.Idx) :
    (dot_S8192x4096_S4096x11008_S8192x11008_1_0_0_1_n_n.lhsIdx i q 0).val = (i 0).val := by
  unfold DotDims.lhsIdx
  rw [dif_neg (show ¬(0 : Fin S8192x4096.rank) ∈ dot_S8192x4096_S4096x11008_S8192x11008_1_0_0_1_n_n.lhsBatch by decide),
    dif_pos (show (0 : Fin S8192x4096.rank) ∈ dot_S8192x4096_S4096x11008_S8192x11008_1_0_0_1_n_n.lhsNonContracting by decide)]
  rfl
theorem lhs_1 (i : S8192x11008.Idx) (q : dot_S8192x4096_S4096x11008_S8192x11008_1_0_0_1_n_n.contr.Idx) :
    (dot_S8192x4096_S4096x11008_S8192x11008_1_0_0_1_n_n.lhsIdx i q 1).val = (q ⟨0, by decide⟩).val :=
  dot_S8192x4096_S4096x11008_S8192x11008_1_0_0_1_n_n.lhsIdx_val_of_single rfl i q
theorem rhs_0 (i : S8192x11008.Idx) (q : dot_S8192x4096_S4096x11008_S8192x11008_1_0_0_1_n_n.contr.Idx) :
    (dot_S8192x4096_S4096x11008_S8192x11008_1_0_0_1_n_n.rhsIdx i q 0).val = (q ⟨0, by decide⟩).val :=
  dot_S8192x4096_S4096x11008_S8192x11008_1_0_0_1_n_n.rhsIdx_val_of_single rfl i q
theorem rhs_1 (i : S8192x11008.Idx) (q : dot_S8192x4096_S4096x11008_S8192x11008_1_0_0_1_n_n.contr.Idx) :
    (dot_S8192x4096_S4096x11008_S8192x11008_1_0_0_1_n_n.rhsIdx i q 1).val = (i 1).val := by
  unfold DotDims.rhsIdx
  rw [dif_neg (show ¬(1 : Fin S4096x11008.rank) ∈ dot_S8192x4096_S4096x11008_S8192x11008_1_0_0_1_n_n.rhsBatch by decide),
    dif_pos (show (1 : Fin S4096x11008.rank) ∈ dot_S8192x4096_S4096x11008_S8192x11008_1_0_0_1_n_n.rhsNonContracting by decide)]
  rfl

/-- The contraction at (t, r) is the sum over the 4096 columns of x[t, k] · y[k, r]. -/
theorem dot_apply (x : FVec Ideal S8192x4096 .f32) (y : FVec Ideal S4096x11008 .f32) (t : Fin 8192) (r : Fin 11008) :
    Host.dotGeneral (F := Ideal) dot_S8192x4096_S4096x11008_S8192x11008_1_0_0_1_n_n none x y (ix2 t r)
      = ∑ k : Fin 4096, x (ix2 t k) * y (ix2 k r) := by
  simp only [Host.dotGeneral]
  rw [Ideal.dotGeneral_apply, ← Equiv.sum_comp (contrEquiv1 dot_S8192x4096_S4096x11008_S8192x11008_1_0_0_1_n_n 4096 rfl rfl).symm]
  refine Finset.sum_congr rfl fun k _ => ?_
  have hk := contrEquiv1_symm_val dot_S8192x4096_S4096x11008_S8192x11008_1_0_0_1_n_n 4096 rfl rfl k
  have el : dot_S8192x4096_S4096x11008_S8192x11008_1_0_0_1_n_n.lhsIdx (ix2 t r) ((contrEquiv1 dot_S8192x4096_S4096x11008_S8192x11008_1_0_0_1_n_n 4096 rfl rfl).symm k) = ix2 t k :=
    funext fun a => Fin.ext (by
      match a with
      | ⟨0, _⟩ => exact lhs_0 _ _
      | ⟨1, _⟩ => exact (lhs_1 _ _).trans hk)
  have er : dot_S8192x4096_S4096x11008_S8192x11008_1_0_0_1_n_n.rhsIdx (ix2 t r) ((contrEquiv1 dot_S8192x4096_S4096x11008_S8192x11008_1_0_0_1_n_n 4096 rfl rfl).symm k) = ix2 k r :=
    funext fun a => Fin.ext (by
      match a with
      | ⟨0, _⟩ => exact (rhs_0 _ _).trans hk
      | ⟨1, _⟩ => exact rhs_1 _ _)
  rw [el, er]

/-! ## The bias row -/

/-- The bias vector repeated along the 8192 rows: position (t, r) holds b[r]. -/
theorem bias_apply (b : FVec Ideal S11008 .f32) (t : Fin 8192) (r : Fin 11008) :
    broadcastInDim S8192x11008 ![0, 1] bcast_S1x11008_S8192x11008_0_1
        (broadcastInDim S1x11008 ![1] bcast_S11008_S1x11008_1 b) (ix2 t r) = b (ix1 r) :=
  (broadcastInDim_apply _ _ _ (ix2 t r) (ix2 (0 : Fin 1) r)
      (fun a => match a with | ⟨0, _⟩ => rfl | ⟨1, _⟩ => rfl)).trans
    (broadcastInDim_apply _ _ _ (ix2 (0 : Fin 1) r) (ix1 r) (fun a => match a with | ⟨0, _⟩ => rfl))

/-! ## The whole term -/

/-- The reference's composed term is the specification's result array. -/
theorem refTerm_eq (x : FVec Ideal S8192x4096 .f32) (w : IVec S11008x64x16 32) (sc bi : FVec Ideal S11008x64x1 .f32)
    (b : FVec Ideal S11008 .f32) : refTerm x w sc bi b = Cert.Spec.out x w sc bi b := by
  funext j
  obtain ⟨t, r, rfl⟩ : ∃ (t : Fin 8192) (r : Fin 11008), j = ix2 t r := ⟨j 0, j 1, eq_ix2 j⟩
  rw [Cert.Spec.out_apply]
  unfold refTerm Cert.Spec.outAt
  rw [addf_apply, bias_apply, dot_apply]
  congr 1
  refine Finset.sum_congr rfl fun k _ => ?_
  rw [transpose_ix2_apply, weight_apply]

/-- Every weakly fair execution of the reference terminates with the result buffer at the specification's array
    of the five arguments, and the arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c => ⟨(h c).1.trans (refTerm_eq _ _ _ _ _), (h c).2⟩)
    (RefRun.run (F := Ideal) m ρ)

end Cert.ReferenceIdeal.RefValue

end
-- ==== Proof.lean ====
/-
  The five claims about a 4-bit group-quantized linear layer.

  Both programs compute `x · weightᵀ + b`, where the 11008 × 4096 weight matrix is dequantized from
  packed words: each word holds four 4-bit codes at bit offsets 12, 8, 4 and 0, and code `p` of the word
  at (row r, group g, slot s) becomes `code · scale[r, g] + bias[r, g]` at column `g·64 + s·4 + p`.

  The reference builds the whole weight matrix on the host and contracts it with x in one product.
  The kernel never builds it: it permutes the columns of x once so that they come plane by plane (all
  codes number 0, then all number 1, …), and for each tile of 256 output features it dequantizes the
  tile's four planes into a cache at the tile's first grid point, then at each of the tile's 16 points
  multiplies a 512-row block of the permuted x with the cached tile and adds the bias.  It also masks
  each word to 16 bits before extracting the codes.

  At exact real arithmetic the two agree entry by entry: the mask changes no code, since every code lies
  below bit 16; the kernel's sum over plane-major columns has the same terms as the reference's sum over
  group-major columns, in another order; and the cache is the same tile of weights at all 16 points of a
  tile, by induction over the grid points.  No law used here fails at the infinities, so the
  precondition is not opened.

  The frames: the two kernel programs' are generated; the reference's is its run with the result dropped.
  The idealization rewrote nothing, so `preserves` has nothing to state.
-/
import proofs.«409624_j18382460026880_3_alg».proof.Defs
import proofs.«409624_j18382460026880_3_alg».proof.Proof.Gen.Kernel
import proofs.«409624_j18382460026880_3_alg».proof.Proof.Gen.Kernel.Skeleton
import proofs.«409624_j18382460026880_3_alg».proof.Proof.Gen.Kernel.Launch
import proofs.«409624_j18382460026880_3_alg».proof.Proof.Gen.Kernel.Points
import proofs.«409624_j18382460026880_3_alg».proof.Proof.Gen.Kernel.Frame
import proofs.«409624_j18382460026880_3_alg».proof.Proof.Gen.KernelIdeal
import proofs.«409624_j18382460026880_3_alg».proof.Proof.Gen.KernelIdeal.Skeleton
import proofs.«409624_j18382460026880_3_alg».proof.Proof.Gen.KernelIdeal.Launch
import proofs.«409624_j18382460026880_3_alg».proof.Proof.Gen.KernelIdeal.Points
import proofs.«409624_j18382460026880_3_alg».proof.Proof.Gen.KernelIdeal.Frame
import proofs.«409624_j18382460026880_3_alg».proof.Proof.Gen.KernelIdeal.Value
import proofs.«409624_j18382460026880_3_alg».proof.Proof.Gen.ReferenceIdeal
import proofs.«409624_j18382460026880_3_alg».proof.Proof.Gen.Pre_finite_inputs
import proofs.«409624_j18382460026880_3_alg».proof.Proof.KResult
import proofs.«409624_j18382460026880_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at exact real arithmetic. -/
theorem frame_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefValue.run_out m ρ)

/-- From memories that agree on the five arguments, both programs end with the result array at
    `x · weightᵀ + b` of those arguments. -/
theorem algebraic : Cert.algebraic_KernelIdeal_ReferenceIdeal := by
  intro m ρ m' ρ' _ hagree
  refine ⟨fun c => Cert.KernelIdeal.Result.want m c, Cert.KernelIdeal.Result.run_out m ρ, ?_⟩
  refine (θ_run Cert.ReferenceIdeal.defs _ _).mono (fun _ h c => ⟨(h c).1.trans ?_, (h c).2⟩)
    (Cert.ReferenceIdeal.RefValue.run_out m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
